-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S4096x256 .f32) (main_arg1 : FVec F S4096x4096 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S1x256 : Shape := ⟨2, ![1, 256]⟩
abbrev S_ : Shape := ⟨0, ![]⟩
abbrev S512x256 : Shape := ⟨2, ![512, 256]⟩
abbrev S512x1024 : Shape := ⟨2, ![512, 1024]⟩
abbrev S1024x256 : Shape := ⟨2, ![1024, 256]⟩

abbrev nBuf : Space → Nat
  | .hbm => 17
  | .vmem => 32
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S4096x256, .f32⟩
  | .hbm, ⟨9, _⟩ => ⟨S1x256, .f32⟩
  | .hbm, ⟨10, _⟩ => ⟨S4096x256, .f32⟩
  | .hbm, ⟨11, _⟩ => ⟨S1x256, .f32⟩
  | .hbm, ⟨12, _⟩ => ⟨S4096x256, .f32⟩
  | .hbm, ⟨13, _⟩ => ⟨S_, .f32⟩
  | .hbm, ⟨14, _⟩ => ⟨S256x256, .f32⟩
  | .hbm, ⟨15, _⟩ => ⟨S1x256, .f32⟩
  | .hbm, ⟨16, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S512x256, .f32⟩
  | .local _ .vmem, ⟨4, _⟩ => ⟨S512x256, .f32⟩
  | .local _ .vmem, ⟨5, _⟩ => ⟨S512x1024, .f32⟩
  | .local _ .vmem, ⟨6, _⟩ => ⟨S512x1024, .f32⟩
  | .local _ .vmem, ⟨7, _⟩ => ⟨S1024x256, .f32⟩
  | .local _ .vmem, ⟨8, _⟩ => ⟨S1024x256, .f32⟩
  | .local _ .vmem, ⟨9, _⟩ => ⟨S1x256, .f32⟩
  | .local _ .vmem, ⟨10, _⟩ => ⟨S256x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x1024, .f32⟩
  | .local _ .vmem, ⟨15, _⟩ => ⟨S512x1024, .f32⟩
  | .local _ .vmem, ⟨16, _⟩ => ⟨S1024x256, .f32⟩
  | .local _ .vmem, ⟨17, _⟩ => ⟨S1024x256, .f32⟩
  | .local _ .vmem, ⟨18, _⟩ => ⟨S1x256, .f32⟩
  | .local _ .vmem, ⟨19, _⟩ => ⟨S256x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x1024, .f32⟩
  | .local _ .vmem, ⟨24, _⟩ => ⟨S512x1024, .f32⟩
  | .local _ .vmem, ⟨25, _⟩ => ⟨S1024x256, .f32⟩
  | .local _ .vmem, ⟨26, _⟩ => ⟨S1024x256, .f32⟩
  | .local _ .vmem, ⟨27, _⟩ => ⟨S1x256, .f32⟩
  | .local _ .vmem, ⟨28, _⟩ => ⟨S256x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_cst : Ref sig .tc := ⟨.hbm, 13, rfl⟩
abbrev main_call0_v5 : Ref sig .tc := ⟨.hbm, 14, rfl⟩
abbrev main_call0_v6 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc3_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem4_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond3 (i : grid1.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_6 : BitVec 32 := 0#32
  let v14 : BitVec 1 := Scalar.cmpi .ne v13 c0_i32_6
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 4], ![false, false]⟩

def k2_cond3 (i : grid2.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_6 : BitVec 32 := 0#32
  let v14 : BitVec 1 := Scalar.cmpi .ne v13 c0_i32_6
  v14

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S512x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![8, 4], ![false, false]⟩

def k3_cond3 (i : grid3.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_6 : BitVec 32 := 0#32
  let v14 : BitVec 1 := Scalar.cmpi .ne v13 c0_i32_6
  v14

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S512x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

class Facts₀ : Prop where
  shapeCasts_S256_S1x256 : S256.ShapeCasts S1x256
  bcast_S_S256x256 : S_.BroadcastsInDim S256x256 (![] : Fin 0 → Fin S256x256.rank)
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S512x1024_S512x1024_0_0 : ∀ a, (![0, 0] : Fin 2 → Nat) a + S512x1024.size a ≤ S512x1024.size a
  h_S512x1024 : 0 < S512x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x256_S256x256_S512x256_1_0_0_1_n_n_wf : DotDims.WF S512x256 S256x256 S512x256 [1] [0] [0] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .f32 = 32 ∨ (Rect.block (s := S4096x256) S512x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .f32 = 32 ∨ (Rect.block (s := S4096x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x256.size a
  hwx1_1 : ∀ i : grid1.Coords, EltTy.bits .f32 = 32 ∨ (Rect.block (s := S4096x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S4096x256.size a
  hwx1_4 : ∀ i : grid1.Coords, EltTy.bits .f32 = 32 ∨ (Rect.block (s := S4096x256) S512x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x4096.size a
  hwx2_0 : ∀ i : grid2.Coords, EltTy.bits .f32 = 32 ∨ (Rect.block (s := S4096x4096) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S4096x256.size a
  hwx2_1 : ∀ i : grid2.Coords, EltTy.bits .f32 = 32 ∨ (Rect.block (s := S4096x256) S1024x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x256.size a ≤ S4096x256.size a
  hwx2_4 : ∀ i : grid2.Coords, EltTy.bits .f32 = 32 ∨ (Rect.block (s := S4096x256) S512x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S4096x4096.size a
  hwx3_0 : ∀ i : grid3.Coords, EltTy.bits .f32 = 32 ∨ (Rect.block (s := S4096x4096) S512x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S4096x256.size a
  hwx3_1 : ∀ i : grid3.Coords, EltTy.bits .f32 = 32 ∨ (Rect.block (s := S4096x256) S1024x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x256.size a ≤ S4096x256.size a
  hwx3_4 : ∀ i : grid3.Coords, EltTy.bits .f32 = 32 ∨ (Rect.block (s := S4096x256) S512x256.size (cc3_transform_4 i) (hinb3_4 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v2) S512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond3 i == 1#1) | ⟨_ + 5, h⟩ => absurd h (Nat.not_lt.2 (Nat.le_add_left _ _))

abbrev win2_0 : Pipeline.Window sig grid2 :=
  Pipeline.Window.ofSpec (Memref.whole main_arg1) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v2) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v3) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v4) S512x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond3 i == 1#1) | ⟨_ + 5, h⟩ => absurd h (Nat.not_lt.2 (Nat.le_add_left _ _))

abbrev win3_0 : Pipeline.Window sig grid3 :=
  Pipeline.Window.ofSpec (Memref.whole main_arg1) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v4) S1024x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v6) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v5) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v0) S512x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond3 i == 1#1) | ⟨_ + 5, h⟩ => absurd h (Nat.not_lt.2 (Nat.le_add_left _ _))

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S4096x256, .f32⟩
  | .hbm, ⟨9, _⟩ => ⟨S4096x256, .f32⟩
  | .hbm, ⟨10, _⟩ => ⟨S1x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S1x256, .f32⟩
  | .hbm, ⟨19, _⟩ => ⟨S4096x256, .f32⟩
  | .hbm, ⟨20, _⟩ => ⟨S4096x256, .f32⟩
  | .hbm, ⟨21, _⟩ => ⟨S_, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S1x256, .f32⟩
  | .hbm, ⟨27, _⟩ => ⟨S4096x256, .f32⟩
  | .hbm, ⟨28, _⟩ => ⟨S4096x256, .f32⟩
  | .hbm, ⟨29, _⟩ => ⟨S_, .f32⟩
  | .hbm, ⟨30, _⟩ => ⟨S4096x256, .f32⟩
  | .hbm, ⟨31, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_v17 : Ref sig .tc := ⟨.hbm, 31, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.Gcn.XW.lean ====
/-
  The first feature transform, x · W1, as a pipelined region over 8 row blocks.  At grid point t the body reads
  the 512 x 256 block t of x and the whole 256 x 256 matrix W1 and writes their product over the 512 x 256
  block t of the result.  Stated at a parameter V, the buffer contents when the region is entered: each input
  window's staging buffer holds its block of V's array at every point (the weight matrix is fetched once and
  its block index never moves), and the output window's buffer after the body is the one store's payload, the
  product of the two blocks.  The region's invariant is only the untouched rest; every share is whole; nothing
  is owed.
-/
import proofs.«114786_g54460185313466_cont_9to1c4b_855_2_alg».proof.Proof.Gen.KernelIdeal.Launch
import proofs.«114786_g54460185313466_cont_9to1c4b_855_2_alg».proof.Proof.Gen.KernelIdeal.Skeleton
import proofs.«114786_g54460185313466_cont_9to1c4b_855_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the region is entered: the parameter the whole module is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the x window holds block `t` of x at every point `t`, for any proof data whose array is
    `V`'s and whose body leaves the block in place: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The staging buffer of the W1 window holds the whole of W1 at every point: fetched at the first point, and at
    the later ones left in place by a body that does not write it, its block index being the same at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read or written whole -/

abbrev r0_0 : Rect S512x256 := Rect.unit (s := S512x256) ![0, 0] S512x256.size inb_S512x256_S512x256_0_0
abbrev r0_1 : Rect S256x256 := Rect.unit (s := S256x256) ![0, 0] S256x256.size inb_S256x256_S256x256_0_0

/-! ## What the body leaves in the output window's buffer -/

/-- The result window's staging buffer after the body, from the two input blocks: its one store, of the product
    of the two loaded blocks, over the whole buffer. -/
def out0_2 (x0 : Vec F S512x256 .f32) (x1 : Vec F S256x256 .f32) : Vec F S512x256 .f32 :=
  View.canon [⟨r0_0, k0_pay1 (View.ld x0 r0_0) (View.ld x1 r0_1)⟩]

/-- The one store is of the whole buffer, so it covers it. -/
theorem cover0_2 (p0 : Vec F S512x256 .f32) (y : S512x256.Idx) :
    ∃ pc ∈ ([⟨r0_0, p0⟩] : List (View.Piece (Elt F) S512x256 .f32)), y ∈ pc.1.set :=
  View.cover_of_tiled [⟨r0_0, p0⟩] S512x256.size (by rfl) y

/-! ## The body's triple -/

set_option maxHeartbeats 1000000 in
/-- The body on whole staging memrefs, the inputs' at contents `x0`, `x1` and the output's at anything, runs to
    the continuation holding the inputs' as they were and the output's at `out0_2 x0 x1`. -/
theorem sound_kernel0 (c : Dev nD) (E : Set ℕ) (i : grid0.Coords)
    (arg1 : Memref sig .tc .vmem S512x256 .f32) (harg1 : arg1.IsWhole)
    (arg2 : Memref sig .tc .vmem S256x256 .f32) (harg2 : arg2.IsWhole)
    (arg3 : Memref sig .tc .vmem S512x256 .f32) (harg3 : arg3.IsWhole)
    (x0 : Vec F S512x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw_body i arg1 harg1 arg2 harg2 arg3 harg3) K := by
  simp only [cc0__xw_body_eq_skeleton]; unfold cc0__xw_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays as the region finds them (`V`); after the body at point
    `t` each input's buffer at its block and the output's at the product of the two blocks; the invariant the
    untouched rest; whole shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- Every share is whole. -/
theorem q_eq0 (c : Dev nD) (w : Fin cfg0.W) : (dat0 V c).q w = fullShare := by
  dsimp only [dat0]

/-- Nothing is owed at any point. -/
theorem owed_eq0 (c : Dev nD) (t : Fin (cfg0.N + 1)) : (dat0 V c).owed t = 0 := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- Entering the region: the untouched rest is the invariant at the first point. -/
theorem hin0 (c : Dev nD) : (Pipeline.ΦA spec0 c : sProp 𝕄) ⊢ (dat0 V c).Φ 0 := by
  rw [show (dat0 V c).Φ 0 = Pipeline.ΦA spec0 c from rfl]

/-- Leaving the region: the invariant after the last point is the untouched rest. -/
theorem hout0 (c : Dev nD) : (dat0 V c).Φ (Fin.last cfg0.N) ⊢ (Pipeline.ΦA spec0 c : sProp 𝕄) := by
  rw [show (dat0 V c).Φ (Fin.last cfg0.N) = Pipeline.ΦA spec0 c from rfl]

end Cert.KernelIdeal.Gcn

end
-- ==== Proof.Gcn.Epilogues.lean ====
/- The three layers' epilogues under one shape. After the last column block the body forms max(acc + b, 0) from the
   finished accumulator and the bias row; the first two layers multiply it by the next weight matrix, the last layer
   stores it as it is and has no use for its fourth operand (a zero matrix). Giving all three the same three operands
   lets one text describe every layer. -/
import proofs.«114786_g54460185313466_cont_9to1c4b_855_2_alg».proof.Proof.Gen.KernelIdeal.Skeleton

noncomputable section

namespace Cert.KernelIdeal.Gcn

open Idealize.ShloMosaic Cert.KernelIdeal Cert.KernelIdeal.Gen

variable {F : FTy → Type} [FloatOps F]

/-- Layer 1's epilogue: max(acc + b, 0) · W. -/
abbrev epi1 (xs : Vec F S512x256 .f32) (b : Vec F S1x256 .f32) (w : Vec F S256x256 .f32) : FVec F S512x256 .f32 := k1_pay4 xs b w
/-- Layer 2's epilogue: max(acc + b, 0) · W. -/
abbrev epi2 (xs : Vec F S512x256 .f32) (b : Vec F S1x256 .f32) (w : Vec F S256x256 .f32) : FVec F S512x256 .f32 := k2_pay4 xs b w
/-- Layer 3's epilogue: max(acc + b, 0); the weight operand is not read. -/
abbrev epi3 (xs : Vec F S512x256 .f32) (b : Vec F S1x256 .f32) (_w : Vec F S256x256 .f32) : FVec F S512x256 .f32 := k3_pay4 xs b

end Cert.KernelIdeal.Gcn

end
-- ==== Proof.Gcn.Layer1.lean ====
/- Region 1: one graph-convolution layer, the product adj · P followed by the layer's epilogue, computed block row
   by block row, P the result of the call before. At grid point (i, k) the body multiplies block (i, k) of adj with
   block k of P; the product starts the accumulator when k = 0 and is added to it when k > 0; when k = 3 the epilogue
   of the finished accumulator (the bias row added, clamped below at zero, and for a layer that is not the last
   multiplied by the next layer's weight matrix) is written to block i of the result. This module states what the
   accumulator and the result's staging buffer hold after every grid point, and proves that the body, run at any
   point on the buffers the pipeline hands it, leaves exactly that. Everything is stated at a parameter V: the
   contents of the core's buffers when the region is entered. -/
import proofs.«114786_g54460185313466_cont_9to1c4b_855_2_alg».proof.Proof.Gen.KernelIdeal.Launch
import proofs.«114786_g54460185313466_cont_9to1c4b_855_2_alg».proof.Proof.Gen.KernelIdeal.Skeleton
import proofs.«114786_g54460185313466_cont_9to1c4b_855_2_alg».proof.Proof.Gen.KernelIdeal.Points
import proofs.«114786_g54460185313466_cont_9to1c4b_855_2_alg».proof.Proof.Gcn.Epilogues
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`): for `w = 0` block (i, k) of
    adj, for `w = 1` block k of the previous layer's result, for `w = 2` the bias row, for `w = 3` the next weight
    matrix, for `w = 4` block i of the result array as it was before the region. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2, whose one block is fetched at the first point and stays. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same of input window 3, whose one block is fetched at the first point and stays. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, in closed form over the grid -/

/-- The first conditional's condition (the second grid coordinate k is 0), as the body computes it. -/
abbrev cond1_first (i : grid1.Coords) : Prop := (Scalar.cmpi .ne (Scalar.extui (Scalar.cmpi .eq (BitVec.ofNat 32 (i 1).val) 0#32)) 0#32) = 1#1
/-- It holds at the points ≡ 0 (mod 4). -/
theorem hcond1_first : ∀ t : Fin cfg1.N, cond1_first (grid1.coords t) ↔ t.val % 4 = 0 :=
  (by decide +kernel : ∀ t : Fin grid1.N, cond1_first (grid1.coords t) ↔ t.val % 4 = 0)

/-- The second conditional's condition (k > 0, compared as signed words), as the body computes it. -/
abbrev cond1_later (i : grid1.Coords) : Prop := (Scalar.cmpi .ne (Scalar.extui (Scalar.cmpi .sgt (BitVec.ofNat 32 (i 1).val) 0#32)) 0#32) = 1#1
/-- It holds at the points ≢ 0 (mod 4). -/
theorem hcond1_later : ∀ t : Fin cfg1.N, cond1_later (grid1.coords t) ↔ ¬t.val % 4 = 0 :=
  (by decide +kernel : ∀ t : Fin grid1.N, cond1_later (grid1.coords t) ↔ ¬t.val % 4 = 0)

/-- The third conditional's condition (k = 3, the last block of the row). -/
abbrev cond1_last (i : grid1.Coords) : Prop := k1_cond3 i = 1#1
/-- It holds at the points ≡ 3 (mod 4). -/
theorem hcond1_last : ∀ t : Fin cfg1.N, cond1_last (grid1.coords t) ↔ t.val % 4 = 3 :=
  (by decide +kernel : ∀ t : Fin grid1.N, cond1_last (grid1.coords t) ↔ t.val % 4 = 3)

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Off the last block of a row the result window is idle: the body stores nothing into it, -/
theorem idleAt1_4 : ∀ t : Fin cfg1.N, ¬t.val % 4 = 3 → cfg1.idle 4 (grid1.coords t) = true := by decide +kernel
/-- and the pipeline does not write its block back. -/
theorem noFlush1_4 : ∀ t : Fin cfg1.N, ¬t.val % 4 = 3 → (cfg1.win 4).flush t = false := by decide +kernel
/-- At the last block of a row the result window is live. -/
theorem liveAt1_4 : ∀ t : Fin cfg1.N, t.val % 4 = 3 → cfg1.idle 4 (grid1.coords t) = false := by decide +kernel

/-! ## The body's accesses: every load and store is of a whole buffer -/

abbrev r1_0 : Rect S512x1024 := Rect.unit (s := S512x1024) ![0, 0] S512x1024.size inb_S512x1024_S512x1024_0_0
abbrev r1_1 : Rect S1024x256 := Rect.unit (s := S1024x256) ![0, 0] S1024x256.size inb_S1024x256_S1024x256_0_0
abbrev r1_2 : Rect S1x256 := Rect.unit (s := S1x256) ![0, 0] S1x256.size inb_S1x256_S1x256_0_0
abbrev r1_3 : Rect S256x256 := Rect.unit (s := S256x256) ![0, 0] S256x256.size inb_S256x256_S256x256_0_0
abbrev r1_4 : Rect S512x256 := Rect.unit (s := S512x256) ![0, 0] S512x256.size inb_S512x256_S512x256_0_0

/-- The scratch operand: a whole scoped buffer of the kernel's own, passed beside the windows. -/
abbrev scM1 : Memref sig .tc .vmem S512x256 .f32 := Memref.whole cc1_scratch0

/-! ## What one run of the body leaves -/

/-- The accumulator after the body at a point with k = 0, from the adj block `xa` and the block `xb` of the previous
    result: their product (both rounded to bf16, accumulated in f32), stored over whatever the accumulator held. -/
def acc1_A (xa : Vec F S512x1024 .f32) (xb : Vec F S1024x256 .f32) : Vec F S512x256 .f32 :=
  View.canon [⟨r1_4, k1_pay2 (View.ld xa r1_0) (View.ld xb r1_1)⟩]

/-- The accumulator after the body at a point with k > 0, from the two blocks and what the accumulator held (`xs`):
    `xs` plus the blocks' product. -/
def acc1_B (xa : Vec F S512x1024 .f32) (xb : Vec F S1024x256 .f32) (xs : Vec F S512x256 .f32) : Vec F S512x256 .f32 :=
  View.canon [⟨r1_4, k1_pay3 (View.ld xa r1_0) (View.ld xb r1_1) (View.ld xs r1_4)⟩]

/-- The result window's staging buffer after the body at a point with k = 3, from the finished accumulator `xs`, the
    bias row `xc` and the next weight matrix `xd`: the layer's epilogue of them (max(xs + xc, 0); for a layer that is
    not the last, that rounded to bf16 times `xd` rounded to bf16). -/
def out1_4 (xs : Vec F S512x256 .f32) (xc : Vec F S1x256 .f32) (xd : Vec F S256x256 .f32) : Vec F S512x256 .f32 :=
  View.canon [⟨r1_4, epi1 (View.ld xs r1_4) (View.ld xc r1_2) (View.ld xd r1_3)⟩]

/-- One whole-buffer store covers the buffer. -/
theorem cover1_4 (p : Vec F S512x256 .f32) (y : S512x256.Idx) :
    ∃ pc ∈ ([⟨r1_4, p⟩] : List (View.Piece (Elt F) S512x256 .f32)), y ∈ pc.1.set :=
  View.cover_of_tiled [⟨r1_4, p⟩] S512x256.size (by rfl) y

/-! ## What the accumulator and the result's staging buffer hold after each point -/

/-- THE ACCUMULATOR after the body at grid position `n` (point (i, k) with n = 4 i + k): at k = 0 the product of
    block (i, 0) of adj with block 0 of the previous result; at k > 0 what position `n - 1` left plus the product of
    block (i, k) of adj with block k of the previous result. So after position 4 i + k it is the sum over j ≤ k of
    adj(i, j) · prev(j), the partial row-block product, added up in the order j = 0, 1, …, k. -/
def accAt1 (c : Dev nD) : (n : ℕ) → n < cfg1.N → Vec F S512x256 .f32
  | 0, hn => acc1_A (iblk1 V c 0 ⟨0, hn⟩) (iblk1 V c 1 ⟨0, hn⟩)
  | n + 1, hn =>
    if (n + 1) % 4 = 0 then acc1_A (iblk1 V c 0 ⟨n + 1, hn⟩) (iblk1 V c 1 ⟨n + 1, hn⟩)
    else acc1_B (iblk1 V c 0 ⟨n + 1, hn⟩) (iblk1 V c 1 ⟨n + 1, hn⟩) (accAt1 c n (Nat.lt_of_succ_lt hn))

/-- `accAt1` at a point with k = 0: the accumulation restarts. -/
theorem accAt1_A (c : Dev nD) (t : Fin cfg1.N) (h0 : t.val % 4 = 0) :
    accAt1 V c t.val t.isLt = acc1_A (iblk1 V c 0 t) (iblk1 V c 1 t) := by
  obtain ⟨n, hn⟩ := t
  cases n with
  | zero => exact rfl
  | succ n => exact (if_pos h0).trans rfl

/-- `accAt1` at a point with k > 0: the product is added to what the point before left. -/
theorem accAt1_B (c : Dev nD) (t : Fin cfg1.N) (h0 : ¬t.val % 4 = 0) :
    accAt1 V c t.val t.isLt = acc1_B (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The reset, by position: at a multiple of 4 the accumulator is the blocks' product. -/
theorem accAt1_reset (c : Dev nD) (n : ℕ) (h : n < cfg1.N) (h0 : n % 4 = 0) :
    accAt1 V c n h = acc1_A (iblk1 V c 0 ⟨n, h⟩) (iblk1 V c 1 ⟨n, h⟩) :=
  accAt1_A V c ⟨n, h⟩ h0

/-- The step, by position: off the multiples of 4 the accumulator is the one before plus the blocks' product. -/
theorem accAt1_step (c : Dev nD) (n : ℕ) (h : n + 1 < cfg1.N) (h0 : ¬(n + 1) % 4 = 0) :
    accAt1 V c (n + 1) h = acc1_B (iblk1 V c 0 ⟨n + 1, h⟩) (iblk1 V c 1 ⟨n + 1, h⟩) (accAt1 V c n (Nat.lt_of_succ_lt h)) :=
  (if_neg h0).trans rfl

/-- THE RESULT WINDOW's staging buffer after the body at point `t`: the epilogue applied to the accumulator as point
    `t` leaves it, the bias row and the next weight matrix. It is what the buffer holds at the points with k = 3, the
    only ones where the body stores into it and the pipeline writes it back to block i of the result array; at the
    other points the window is idle and nothing reads this value. -/
def outAt1 (c : Dev nD) (t : Fin cfg1.N) : Vec F S512x256 .f32 :=
  out1_4 (accAt1 V c t.val t.isLt) (iblk1 V c 2 t) (iblk1 V c 3 t)

/-! ## The region invariant -/

/-- What the launch hands the region, with the accumulator split off the core's other scoped buffers: the
    accumulator at some contents, the other scoped buffers that are no staging buffer of this call (unopened), and the
    generator register at some state. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [Idealize.SL.BI.bigSepL_singleton, scM1, owns_whole]
  try rfl

/-- The invariant before position `n`: before the first point what the launch hands over; afterwards the same with
    the accumulator at what position `n - 1` left in it. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn)
      ∗ Pipeline.scopedRestBut (Ix := Unit) (Name := ℕ) (U := UR sig nD τ) (Lvl := ℕ) (Val := Elt F) spec1 c [cc1_scratch0])
      ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1 fullShare (accAt1 V c n hn)
      ∗ Pipeline.scopedRestBut (Ix := Unit) (Name := ℕ) (U := UR sig nD τ) (Lvl := ℕ) (Val := Elt F) spec1 c [cc1_scratch0])
      ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1 fullShare (accAt1 V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the result's at `outAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1 V c t
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- Every array is held at the full share. -/
theorem q_eq1 (c : Dev nD) (w : Fin cfg1.W) : (dat1 V c).q w = fullShare := rfl

/-- The core owes nothing throughout. -/
theorem owed_eq1 (c : Dev nD) (t : Fin (cfg1.N + 1)) : (dat1 V c).owed t = 0 := rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body's triple, case by case -/

set_option maxHeartbeats 1000000 in
/-- The body at a point with k = 0 (only the first conditional taken), on whole memrefs: the two blocks at their
    contents and the accumulator at anything; it runs to the continuation holding the blocks as they were and the
    accumulator at their product. The bias, the weight matrix and the result's buffer are not touched. -/
theorem sound_kernel1_A (c : Dev nD) (E : Set ℕ) (i : grid1.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S512x256 .f32) (harg6 : arg6.IsWhole) (arg7 : Memref sig .tc .vmem S512x256 .f32) (harg7 : arg7.IsWhole)
    (hca : cond1_first i) (hcb : ¬cond1_later i) (hcc : ¬cond1_last i)
    (xa : Vec F S512x1024 .f32) (xb : Vec F S1024x256 .f32) (K : PUnit → sProp 𝕄) :
    iprop(owns (c : Thread nD τ) arg2 fullShare xa ∗ owns (c : Thread nD τ) arg3 fullShare xb ∗ (∃ d, owns (c : Thread nD τ) arg7 fullShare d)
        ∗ (iprop(owns (c : Thread nD τ) arg2 fullShare xa ∗ owns (c : Thread nD τ) arg3 fullShare xb
            ∗ owns (c : Thread nD τ) arg7 fullShare (acc1_A xa xb)) -∗ K ⟨⟩))
      ⊢ wp frame (wpE (defs₀ (F := F)) Variants.none c none) E (cc1__layer_body i arg2 harg2 arg3 harg3 arg4 harg4 arg5 harg5 arg6 harg6 arg7 harg7) K := by
  simp only [cc1__layer_body_eq_skeleton]; unfold cc1__layer_body_skel
  unfold owns
  iintro ⟨⟨%fa, %hfa, Ha⟩, ⟨%fb, %hfb, Hb⟩, ⟨%ds, %fs, -, HS⟩, Hk⟩
  subst hfa; subst hfb
  sl_exec (disch := first | sl_exact hca | sl_exact hcb | sl_exact hcc)
  sl_step
  iapply Hk
  isplitl [Ha]
  · iexists fa; isplitr; · ipureintro; rfl
    iexact Ha
  isplitl [Hb]
  · iexists fb; isplitr; · ipureintro; rfl
    iexact Hb
  iexists _; isplitr
  swap; · iexact HS
  ipureintro
  exact View.read_writes_eq_canon _ _ _ (cover1_4 _)

set_option maxHeartbeats 1000000 in
/-- The body at a point with k = 1 or 2 (only the second conditional taken): the two blocks at their contents and the
    accumulator at `xs`; it runs to the continuation holding the blocks as they were and the accumulator at `xs` plus
    their product. The bias, the weight matrix and the result's buffer are not touched. -/
theorem sound_kernel1_B (c : Dev nD) (E : Set ℕ) (i : grid1.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S512x256 .f32) (harg6 : arg6.IsWhole) (arg7 : Memref sig .tc .vmem S512x256 .f32) (harg7 : arg7.IsWhole)
    (hca : ¬cond1_first i) (hcb : cond1_later i) (hcc : ¬cond1_last i)
    (xa : Vec F S512x1024 .f32) (xb : Vec F S1024x256 .f32) (xs : Vec F S512x256 .f32) (K : PUnit → sProp 𝕄) :
    iprop(owns (c : Thread nD τ) arg2 fullShare xa ∗ owns (c : Thread nD τ) arg3 fullShare xb ∗ owns (c : Thread nD τ) arg7 fullShare xs
        ∗ (iprop(owns (c : Thread nD τ) arg2 fullShare xa ∗ owns (c : Thread nD τ) arg3 fullShare xb
            ∗ owns (c : Thread nD τ) arg7 fullShare (acc1_B xa xb xs)) -∗ K ⟨⟩))
      ⊢ wp frame (wpE (defs₀ (F := F)) Variants.none c none) E (cc1__layer_body i arg2 harg2 arg3 harg3 arg4 harg4 arg5 harg5 arg6 harg6 arg7 harg7) K := by
  simp only [cc1__layer_body_eq_skeleton]; unfold cc1__layer_body_skel
  unfold owns
  iintro ⟨⟨%fa, %hfa, Ha⟩, ⟨%fb, %hfb, Hb⟩, ⟨%fs, %hfs, HS⟩, Hk⟩
  subst hfa; subst hfb; subst hfs
  sl_exec (disch := first | sl_exact hca | sl_exact hcb | sl_exact hcc)
  sl_step
  iapply Hk
  isplitl [Ha]
  · iexists fa; isplitr; · ipureintro; rfl
    iexact Ha
  isplitl [Hb]
  · iexists fb; isplitr; · ipureintro; rfl
    iexact Hb
  iexists _; isplitr
  swap; · iexact HS
  ipureintro
  exact View.read_writes_eq_canon _ _ _ (cover1_4 _)

/-- A load of the whole accumulator after one whole-buffer store of `P` into it reads the stored contents; so the
    epilogue's store, computed from that load, is `out1_4` of them. -/
theorem out1_4_of_stored {κ : Kind} {sp : Space} (v : View sig κ sp S512x256 .f32) (P : Vec F S512x256 .f32)
    (xc : Vec F S1x256 .f32) (xd : Vec F S256x256 .f32) :
    View.canon ([⟨r1_4, epi1 (v.readCov ([⟨r1_4, P⟩] : List (View.Piece (Elt F) S512x256 .f32)) r1_4.toLoadRect)
        (View.ld xc r1_2) (View.ld xd r1_3)⟩] : List (View.Piece (Elt F) S512x256 .f32))
      = out1_4 (View.canon [⟨r1_4, P⟩]) xc xd := by
  unfold out1_4
  rw [View.readCov_eq_canon_ld (Val := Elt F) v [⟨r1_4, P⟩] r1_4 (cover1_4 P)]

set_option maxHeartbeats 1000000 in
/-- The body at a point with k = 3 (the second and the third conditional taken): the two blocks, the bias row and the
    weight matrix at their contents, the accumulator at `xs`, the result's buffer at anything; it runs to the
    continuation holding the inputs as they were, the accumulator at `xs` plus the blocks' product, and the result's
    buffer at the epilogue of that sum. -/
theorem sound_kernel1_C (c : Dev nD) (E : Set ℕ) (i : grid1.Coords) (arg2 : Memref sig .tc .vmem S512x1024 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S512x256 .f32) (harg6 : arg6.IsWhole) (arg7 : Memref sig .tc .vmem S512x256 .f32) (harg7 : arg7.IsWhole)
    (hca : ¬cond1_first i) (hcb : cond1_later i) (hcc : cond1_last i)
    (xa : Vec F S512x1024 .f32) (xb : Vec F S1024x256 .f32) (xc : Vec F S1x256 .f32) (xd : Vec F S256x256 .f32)
    (xs : Vec F S512x256 .f32) (K : PUnit → sProp 𝕄) :
    iprop(owns (c : Thread nD τ) arg2 fullShare xa ∗ owns (c : Thread nD τ) arg3 fullShare xb ∗ owns (c : Thread nD τ) arg4 fullShare xc
        ∗ owns (c : Thread nD τ) arg5 fullShare xd ∗ (∃ d, owns (c : Thread nD τ) arg6 fullShare d) ∗ owns (c : Thread nD τ) arg7 fullShare xs
        ∗ (iprop(owns (c : Thread nD τ) arg2 fullShare xa ∗ owns (c : Thread nD τ) arg3 fullShare xb ∗ owns (c : Thread nD τ) arg4 fullShare xc
            ∗ owns (c : Thread nD τ) arg5 fullShare xd ∗ owns (c : Thread nD τ) arg6 fullShare (out1_4 (acc1_B xa xb xs) xc xd)
            ∗ owns (c : Thread nD τ) arg7 fullShare (acc1_B xa xb xs)) -∗ K ⟨⟩))
      ⊢ wp frame (wpE (defs₀ (F := F)) Variants.none c none) E (cc1__layer_body i arg2 harg2 arg3 harg3 arg4 harg4 arg5 harg5 arg6 harg6 arg7 harg7) K := by
  simp only [cc1__layer_body_eq_skeleton]; unfold cc1__layer_body_skel
  unfold owns
  iintro ⟨⟨%fa, %hfa, Ha⟩, ⟨%fb, %hfb, Hb⟩, ⟨%fc, %hfc, Hc⟩, ⟨%fd, %hfd, Hd⟩, ⟨%de, %fe, -, He⟩, ⟨%fs, %hfs, HS⟩, Hk⟩
  subst hfa; subst hfb; subst hfc; subst hfd; subst hfs
  sl_exec (disch := first | sl_exact hca | sl_exact hcb | sl_exact hcc)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists _; isplitr
    swap; · iexact He
    ipureintro
    exact (View.read_writes_eq_canon _ _ _ (cover1_4 _)).trans (out1_4_of_stored _ _ _ _)
  iexists _; isplitr
  swap; · iexact HS
  ipureintro
  exact View.read_writes_eq_canon _ _ _ (cover1_4 _)

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the position decides the case. With k = 0 the
    invariant hands over the accumulator at anything (before the first point) or at what the point before left, and
    takes it back at the blocks' product; with k > 0 it hands it over at what the point before left and takes it back
    with the product added; off k = 3 the result's buffer is handed back as found, at k = 3 it is handed over at
    anything and taken back at the epilogue of the finished accumulator. The other scoped buffers, the generator
    register and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  have hN : t.val < 32 := lt_of_lt_of_eq t.isLt (show cfg1.N = 32 from N_1)
  by_cases h0 : t.val % 4 = 0
  · have h3 : ¬t.val % 4 = 3 := by omega
    rw [Dat.leavesExact_idle (dat1 V c) 4 t (idleAt1_4 t h3) (noFlush1_4 t h3)]
    rw [accAt1_A V c t h0]
    by_cases hz : t.val = 0
    · rw [PhiS1_castSucc V c t, PhiS1_zero V c _ _ hz, PhiA1_eq]
      iintro ⟨⟨⟨HS, HR⟩, Hg⟩, Ho, ⟨%da, Ha⟩, ⟨%db, Hb⟩, ⟨%dc, Hc⟩, ⟨%dd, Hd⟩, ⟨%de, He⟩⟩
      iapply (sound_kernel1_A c Set.univ (grid1.coords t) _ _ _ _ _ _ _ _ _ _ _ _ ((hcond1_first t).mpr h0)
        (fun h => (hcond1_later t).mp h h0) (fun h => h3 ((hcond1_last t).mp h)) (iblk1 V c 0 t) (iblk1 V c 1 t) _)
      isplitl [Ha]; · iexact Ha
      isplitl [Hb]; · iexact Hb
      isplitl [HS]; · iexact HS
      iintro ⟨Ha, Hb, HS⟩
      isplitl [HS HR Hg]
      · isplitl [HS HR]
        · isplitl [HS]; · iexact HS
          iexact HR
        iexact Hg
      isplitl [Ho]; · iexact Ho
      isplitl [Ha]; · iexact Ha
      isplitl [Hb]; · iexact Hb
      isplitl [Hc]; · iexact Hc
      isplitl [Hd]; · iexact Hd
      iexists _; iexact He
    · rw [PhiS1_castSucc V c t, PhiS1_pos V c _ _ hz]
      iintro ⟨⟨⟨HS, HR⟩, Hg⟩, Ho, ⟨%da, Ha⟩, ⟨%db, Hb⟩, ⟨%dc, Hc⟩, ⟨%dd, Hd⟩, ⟨%de, He⟩⟩
      iapply (sound_kernel1_A c Set.univ (grid1.coords t) _ _ _ _ _ _ _ _ _ _ _ _ ((hcond1_first t).mpr h0)
        (fun h => (hcond1_later t).mp h h0) (fun h => h3 ((hcond1_last t).mp h)) (iblk1 V c 0 t) (iblk1 V c 1 t) _)
      isplitl [Ha]; · iexact Ha
      isplitl [Hb]; · iexact Hb
      isplitl [HS]; · iexists _; iexact HS
      iintro ⟨Ha, Hb, HS⟩
      isplitl [HS HR Hg]
      · isplitl [HS HR]
        · isplitl [HS]; · iexact HS
          iexact HR
        iexact Hg
      isplitl [Ho]; · iexact Ho
      isplitl [Ha]; · iexact Ha
      isplitl [Hb]; · iexact Hb
      isplitl [Hc]; · iexact Hc
      isplitl [Hd]; · iexact Hd
      iexists _; iexact He
  · have hz : t.val ≠ 0 := by omega
    by_cases h3 : t.val % 4 = 3
    · rw [show (dat1 V c).leavesExact 4 t = owns (c : Thread nD τ) (st1_4 t) fullShare ((dat1 V c).after 4 t) from by
        unfold Dat.leavesExact; rw [liveAt1_4 t h3], after1_4]
      unfold outAt1
      rw [accAt1_B V c t h0]
      rw [PhiS1_castSucc V c t, PhiS1_pos V c _ _ hz]
      iintro ⟨⟨⟨HS, HR⟩, Hg⟩, Ho, ⟨%da, Ha⟩, ⟨%db, Hb⟩, ⟨%dc, Hc⟩, ⟨%dd, Hd⟩, ⟨%de, He⟩⟩
      iapply (sound_kernel1_C c Set.univ (grid1.coords t) _ _ _ _ _ _ _ _ _ _ _ _ (fun h => h0 ((hcond1_first t).mp h))
        ((hcond1_later t).mpr h0) ((hcond1_last t).mpr h3) (iblk1 V c 0 t) (iblk1 V c 1 t) (iblk1 V c 2 t) (iblk1 V c 3 t) _ _)
      isplitl [Ha]; · iexact Ha
      isplitl [Hb]; · iexact Hb
      isplitl [Hc]; · iexact Hc
      isplitl [Hd]; · iexact Hd
      isplitl [He]; · iexists _; iexact He
      isplitl [HS]; · iexact HS
      iintro ⟨Ha, Hb, Hc, Hd, He, HS⟩
      isplitl [HS HR Hg]
      · isplitl [HS HR]
        · isplitl [HS]; · iexact HS
          iexact HR
        iexact Hg
      isplitl [Ho]; · iexact Ho
      isplitl [Ha]; · iexact Ha
      isplitl [Hb]; · iexact Hb
      isplitl [Hc]; · iexact Hc
      isplitl [Hd]; · iexact Hd
      iexact He
    · rw [Dat.leavesExact_idle (dat1 V c) 4 t (idleAt1_4 t h3) (noFlush1_4 t h3)]
      rw [accAt1_B V c t h0]
      rw [PhiS1_castSucc V c t, PhiS1_pos V c _ _ hz]
      iintro ⟨⟨⟨HS, HR⟩, Hg⟩, Ho, ⟨%da, Ha⟩, ⟨%db, Hb⟩, ⟨%dc, Hc⟩, ⟨%dd, Hd⟩, ⟨%de, He⟩⟩
      iapply (sound_kernel1_B c Set.univ (grid1.coords t) _ _ _ _ _ _ _ _ _ _ _ _ (fun h => h0 ((hcond1_first t).mp h))
        ((hcond1_later t).mpr h0) (fun h => h3 ((hcond1_last t).mp h)) (iblk1 V c 0 t) (iblk1 V c 1 t) _ _)
      isplitl [Ha]; · iexact Ha
      isplitl [Hb]; · iexact Hb
      isplitl [HS]; · iexact HS
      iintro ⟨Ha, Hb, HS⟩
      isplitl [HS HR Hg]
      · isplitl [HS HR]
        · isplitl [HS]; · iexact HS
          iexact HR
        iexact Hg
      isplitl [Ho]; · iexact Ho
      isplitl [Ha]; · iexact Ha
      isplitl [Hb]; · iexact Hb
      isplitl [Hc]; · iexact Hc
      isplitl [Hd]; · iexact Hd
      iexists _; iexact He

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: the accumulator's contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 32 := N_1; omega)

end Cert.KernelIdeal.Gcn

end
-- ==== Proof.Gcn.Program.lean ====
/-
  The program as seven segments: the first feature transform, then three times a bias reshape (for the last layer also
  a zero matrix) followed by a layer. Between two segments the core's unscoped buffers are held whole at named contents:
  the launch memory, then after each region its arrays as that region's write-backs leave them (the inputs unchanged,
  the output the fold of the flushed blocks) and after each host stretch the operations' results. Every region is entered
  from those contents and left at the next ones; chained, every weakly fair execution of the whole program terminates with
  each unscoped buffer at the last contents. No region and no host stretch writes an argument array, so the arguments
  end as launched, and the result array ends at what the last layer's write-backs leave.
-/
import proofs.«114786_g54460185313466_cont_9to1c4b_855_2_alg».proof.Proof.Gen.KernelIdeal.Launch
import proofs.«114786_g54460185313466_cont_9to1c4b_855_2_alg».proof.Proof.Gen.KernelIdeal.Skeleton
import proofs.«114786_g54460185313466_cont_9to1c4b_855_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114786_g54460185313466_cont_9to1c4b_855_2_alg».proof.Proof.Gen.KernelIdeal.Regions
import proofs.«114786_g54460185313466_cont_9to1c4b_855_2_alg».proof.Proof.Gcn.XW
import proofs.«114786_g54460185313466_cont_9to1c4b_855_2_alg».proof.Proof.Gcn.Layer1
import proofs.«114786_g54460185313466_cont_9to1c4b_855_2_alg».proof.Proof.Gcn.Layer2
import proofs.«114786_g54460185313466_cont_9to1c4b_855_2_alg».proof.Proof.Gcn.Layer3

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => m (c, b)
/-- The same read at the TensorCore's references. -/
abbrev X0 : (c : Dev nD) → (b : Ref sig .tc) → Buf (Elt F) ((c : Thread nD τ).loc b) := fun c b => W0 m c b

/-- After region 0: its arrays at what its write-backs leave, every other buffer as the region found it. -/
def W1 (c : Dev nD) : Valuation τ sig (Elt F) :=
  Pipeline.withArrays spec0 c (W0 m c) fun w => (dat0 (X0 m) c).arrAt w cfg0.N
theorem W1_arr (c : Dev nD) (w : Fin cfg0.W) :
    W1 m c (Proc.devRef .tc (Pipeline.arrRef spec0 w)) = (dat0 (X0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev X1 : (c : Dev nD) → (b : Ref sig .tc) → Buf (Elt F) ((c : Thread nD τ).loc b) := fun c b => W1 m c b
theorem hF0 (c : Dev nD) (w : Fin cfg0.W) : (dat0 (X0 m) c).arrAt w cfg0.N = X1 m c (Pipeline.arrRef spec0 w) :=
  (W1_arr m c w).symm
theorem hrest0 (c : Dev nD) : ∀ b, b ∉ Finset.univ.image (Pipeline.arrRef spec0) → X1 m c b = X0 m c b :=
  fun b hb => W1_of_ne m c b fun w e => hb (Finset.mem_image.mpr ⟨w, Finset.mem_univ _, e⟩)
/-- A buffer that is not region 0's output array is left as the region found it: an input window's array is never
    written, and a buffer that is no window's array bypasses the region. -/
theorem W1_keep (c : Dev nD) (b : Ref sig .tc) (hb : b ≠ Pipeline.arrRef spec0 2) :
    W1 m c (Proc.devRef .tc b) = W0 m c (Proc.devRef .tc b) := by
  by_cases h : ∃ w, Pipeline.arrRef spec0 w = b
  · obtain ⟨w, rfl⟩ := h
    fin_cases w
    · exact (W1_arr m c 0).trans (((dat0 (X0 m) c).arrAt_in 0 rfl _).trans (A_eq0 (X0 m) c 0))
    · exact (W1_arr m c 1).trans (((dat0 (X0 m) c).arrAt_in 1 rfl _).trans (A_eq0 (X0 m) c 1))
    · exact absurd rfl hb
  · exact W1_of_ne m c b fun w e => h ⟨w, e⟩

/-- After the host stretch that follows region 0. -/
abbrev W2 : Dev nD → Valuation τ sig (Elt F) := fun c => StableHlo.after hostOps1 (W1 m c)
abbrev X2 : (c : Dev nD) → (b : Ref sig .tc) → Buf (Elt F) ((c : Thread nD τ).loc b) := fun c b => W2 m c b
theorem W2_keep (c : Dev nD) (b : Ref sig .tc) (hb : b ∉ hostOps1_W) :
    W2 m c (Proc.devRef .tc b) = W1 m c (Proc.devRef .tc b) :=
  StableHlo.after_of_writes_sub hostOps1 _ hostOps1_writes hb

/-- After region 1: its arrays at what its write-backs leave, every other buffer as the region found it. -/
def W3 (c : Dev nD) : Valuation τ sig (Elt F) :=
  Pipeline.withArrays spec1 c (W2 m c) fun w => (dat1 (X2 m) c).arrAt w cfg1.N
theorem W3_arr (c : Dev nD) (w : Fin cfg1.W) :
    W3 m c (Proc.devRef .tc (Pipeline.arrRef spec1 w)) = (dat1 (X2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev X3 : (c : Dev nD) → (b : Ref sig .tc) → Buf (Elt F) ((c : Thread nD τ).loc b) := fun c b => W3 m c b
theorem hF1 (c : Dev nD) (w : Fin cfg1.W) : (dat1 (X2 m) c).arrAt w cfg1.N = X3 m c (Pipeline.arrRef spec1 w) :=
  (W3_arr m c w).symm
theorem hrest1 (c : Dev nD) : ∀ b, b ∉ Finset.univ.image (Pipeline.arrRef spec1) → X3 m c b = X2 m c b :=
  fun b hb => W3_of_ne m c b fun w e => hb (Finset.mem_image.mpr ⟨w, Finset.mem_univ _, e⟩)
/-- A buffer that is not region 1's output array is left as the region found it: an input window's array is never
    written, and a buffer that is no window's array bypasses the region. -/
theorem W3_keep (c : Dev nD) (b : Ref sig .tc) (hb : b ≠ Pipeline.arrRef spec1 4) :
    W3 m c (Proc.devRef .tc b) = W2 m c (Proc.devRef .tc b) := by
  by_cases h : ∃ w, Pipeline.arrRef spec1 w = b
  · obtain ⟨w, rfl⟩ := h
    fin_cases w
    · exact (W3_arr m c 0).trans (((dat1 (X2 m) c).arrAt_in 0 rfl _).trans (A_eq1 (X2 m) c 0))
    · exact (W3_arr m c 1).trans (((dat1 (X2 m) c).arrAt_in 1 rfl _).trans (A_eq1 (X2 m) c 1))
    · exact (W3_arr m c 2).trans (((dat1 (X2 m) c).arrAt_in 2 rfl _).trans (A_eq1 (X2 m) c 2))
    · exact (W3_arr m c 3).trans (((dat1 (X2 m) c).arrAt_in 3 rfl _).trans (A_eq1 (X2 m) c 3))
    · exact absurd rfl hb
  · exact W3_of_ne m c b fun w e => h ⟨w, e⟩

/-- After the host stretch that follows region 1. -/
abbrev W4 : Dev nD → Valuation τ sig (Elt F) := fun c => StableHlo.after hostOps2 (W3 m c)
abbrev X4 : (c : Dev nD) → (b : Ref sig .tc) → Buf (Elt F) ((c : Thread nD τ).loc b) := fun c b => W4 m c b
theorem W4_keep (c : Dev nD) (b : Ref sig .tc) (hb : b ∉ hostOps2_W) :
    W4 m c (Proc.devRef .tc b) = W3 m c (Proc.devRef .tc b) :=
  StableHlo.after_of_writes_sub hostOps2 _ hostOps2_writes hb

/-- After region 2: its arrays at what its write-backs leave, every other buffer as the region found it. -/
def W5 (c : Dev nD) : Valuation τ sig (Elt F) :=
  Pipeline.withArrays spec2 c (W4 m c) fun w => (dat2 (X4 m) c).arrAt w cfg2.N
theorem W5_arr (c : Dev nD) (w : Fin cfg2.W) :
    W5 m c (Proc.devRef .tc (Pipeline.arrRef spec2 w)) = (dat2 (X4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev X5 : (c : Dev nD) → (b : Ref sig .tc) → Buf (Elt F) ((c : Thread nD τ).loc b) := fun c b => W5 m c b
theorem hF2 (c : Dev nD) (w : Fin cfg2.W) : (dat2 (X4 m) c).arrAt w cfg2.N = X5 m c (Pipeline.arrRef spec2 w) :=
  (W5_arr m c w).symm
theorem hrest2 (c : Dev nD) : ∀ b, b ∉ Finset.univ.image (Pipeline.arrRef spec2) → X5 m c b = X4 m c b :=
  fun b hb => W5_of_ne m c b fun w e => hb (Finset.mem_image.mpr ⟨w, Finset.mem_univ _, e⟩)
/-- A buffer that is not region 2's output array is left as the region found it: an input window's array is never
    written, and a buffer that is no window's array bypasses the region. -/
theorem W5_keep (c : Dev nD) (b : Ref sig .tc) (hb : b ≠ Pipeline.arrRef spec2 4) :
    W5 m c (Proc.devRef .tc b) = W4 m c (Proc.devRef .tc b) := by
  by_cases h : ∃ w, Pipeline.arrRef spec2 w = b
  · obtain ⟨w, rfl⟩ := h
    fin_cases w
    · exact (W5_arr m c 0).trans (((dat2 (X4 m) c).arrAt_in 0 rfl _).trans (A_eq2 (X4 m) c 0))
    · exact (W5_arr m c 1).trans (((dat2 (X4 m) c).arrAt_in 1 rfl _).trans (A_eq2 (X4 m) c 1))
    · exact (W5_arr m c 2).trans (((dat2 (X4 m) c).arrAt_in 2 rfl _).trans (A_eq2 (X4 m) c 2))
    · exact (W5_arr m c 3).trans (((dat2 (X4 m) c).arrAt_in 3 rfl _).trans (A_eq2 (X4 m) c 3))
    · exact absurd rfl hb
  · exact W5_of_ne m c b fun w e => h ⟨w, e⟩

/-- After the host stretch that follows region 2. -/
abbrev W6 : Dev nD → Valuation τ sig (Elt F) := fun c => StableHlo.after hostOps3 (W5 m c)
abbrev X6 : (c : Dev nD) → (b : Ref sig .tc) → Buf (Elt F) ((c : Thread nD τ).loc b) := fun c b => W6 m c b
theorem W6_keep (c : Dev nD) (b : Ref sig .tc) (hb : b ∉ hostOps3_W) :
    W6 m c (Proc.devRef .tc b) = W5 m c (Proc.devRef .tc b) :=
  StableHlo.after_of_writes_sub hostOps3 _ hostOps3_writes hb

/-- After region 3: its arrays at what its write-backs leave, every other buffer as the region found it. -/
def W7 (c : Dev nD) : Valuation τ sig (Elt F) :=
  Pipeline.withArrays spec3 c (W6 m c) fun w => (dat3 (X6 m) c).arrAt w cfg3.N
theorem W7_arr (c : Dev nD) (w : Fin cfg3.W) :
    W7 m c (Proc.devRef .tc (Pipeline.arrRef spec3 w)) = (dat3 (X6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev X7 : (c : Dev nD) → (b : Ref sig .tc) → Buf (Elt F) ((c : Thread nD τ).loc b) := fun c b => W7 m c b
theorem hF3 (c : Dev nD) (w : Fin cfg3.W) : (dat3 (X6 m) c).arrAt w cfg3.N = X7 m c (Pipeline.arrRef spec3 w) :=
  (W7_arr m c w).symm
theorem hrest3 (c : Dev nD) : ∀ b, b ∉ Finset.univ.image (Pipeline.arrRef spec3) → X7 m c b = X6 m c b :=
  fun b hb => W7_of_ne m c b fun w e => hb (Finset.mem_image.mpr ⟨w, Finset.mem_univ _, e⟩)
/-- A buffer that is not region 3's output array is left as the region found it: an input window's array is never
    written, and a buffer that is no window's array bypasses the region. -/
theorem W7_keep (c : Dev nD) (b : Ref sig .tc) (hb : b ≠ Pipeline.arrRef spec3 4) :
    W7 m c (Proc.devRef .tc b) = W6 m c (Proc.devRef .tc b) := by
  by_cases h : ∃ w, Pipeline.arrRef spec3 w = b
  · obtain ⟨w, rfl⟩ := h
    fin_cases w
    · exact (W7_arr m c 0).trans (((dat3 (X6 m) c).arrAt_in 0 rfl _).trans (A_eq3 (X6 m) c 0))
    · exact (W7_arr m c 1).trans (((dat3 (X6 m) c).arrAt_in 1 rfl _).trans (A_eq3 (X6 m) c 1))
    · exact (W7_arr m c 2).trans (((dat3 (X6 m) c).arrAt_in 2 rfl _).trans (A_eq3 (X6 m) c 2))
    · exact (W7_arr m c 3).trans (((dat3 (X6 m) c).arrAt_in 3 rfl _).trans (A_eq3 (X6 m) c 3))
    · exact absurd rfl hb
  · exact W7_of_ne m c b fun w e => h ⟨w, e⟩
/-! ## The proof data family and the thread state -/

/-- Every region's proof data, each at the contents its region is entered from: a literal match on the region. -/
def pdats : (p : Fin 4) → (c : Dev nD) → Dat τ (Elt F) Unit ℕ (UR sig nD τ) ℕ (Pipeline.pin (pcfgs (F := F)) adm p) c
  | ⟨0, _⟩ => fun c => dat0 (X0 m) c
  | ⟨1, _⟩ => fun c => dat1 (X2 m) c
  | ⟨2, _⟩ => fun c => dat2 (X4 m) c
  | ⟨3, _⟩ => fun c => dat3 (X6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing: every unscoped buffer at the last contents, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0: entered from every unscoped buffer at the contents before it, left at the contents after it. Its arrays are
    split out of the unscoped buffers and put back at what the write-backs leave; the generator register and the scoped
    buffers go into the region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (X0 m) c).loose
  hwaits := Pipeline.hwaits_of_owed_zero _ _ _ _ L lv 0 fun c t => owed_eq0 (X0 m) c t
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (X0 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (X0 m) c w) (X0 m c) fun w => A_eq0 (X0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed_eq0 (X0 m) c 0]
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m 0 c).Φ 0 := hin0 (X0 m) c
    unfold Pipeline.ΦA at h
    iintro ⟨Hp, -, Hr⟩
    iapply h
    isplitl [Hr]; · iexact Hr
    iexact Hp
  hout c := by
    rw [Pipeline.ownSems0_none]
    have h : (pdats m 0 c).Φ (Fin.last _) ⊢ (Pipeline.ΦA spec0 c : sProp 𝕄) := hout0 (X0 m) c
    unfold Pipeline.ΦA at h
    iintro H
    ihave HA := h $$ H
    icases HA with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (X0 m) c w)
      (X0 m c) (X1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed_eq0 (X0 m) c _]
    icases HO with ⟨%W, -, HO⟩; iexists W; iexact HO

set_option backward.isDefEq.respectTransparency.types false in
/-- Region 1: entered from every unscoped buffer at the contents before it, left at the contents after it. Its arrays are
    split out of the unscoped buffers and put back at what the write-backs leave; the generator register and the scoped
    buffers go into the region's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (X2 m) c).loose
  hwaits := Pipeline.hwaits_of_owed_zero _ _ _ _ L lv 1 fun c t => owed_eq1 (X2 m) c t
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (X2 m c)
  hentry c := by
    rw [Pipeline.ownSems0_none]
    have hsplit := Pipeline.arrays_of_unscopedBufs (p := 1) (pcfgs (F := F)) adm (pdats m) launch1.win launch1.arr_whole c
      ((pdats m 1 c).share_full fun w => q_eq1 (X2 m) c w) (X2 m c) fun w => A_eq1 (X2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed_eq1 (X2 m) c 0]
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m 1 c).Φ 0 := hin1 (X2 m) c
    unfold Pipeline.ΦA at h
    iintro ⟨Hp, -, Hr⟩
    iapply h
    isplitl [Hr]; · iexact Hr
    iexact Hp
  hout c := by
    rw [Pipeline.ownSems0_none]
    have h : (pdats m 1 c).Φ (Fin.last _) ⊢ (Pipeline.ΦA spec1 c : sProp 𝕄) := hout1 (X2 m) c
    unfold Pipeline.ΦA at h
    iintro H
    ihave HA := h $$ H
    icases HA with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => q_eq1 (X2 m) c w)
      (X2 m c) (X3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from owed_eq1 (X2 m) c _]
    icases HO with ⟨%W, -, HO⟩; iexists W; iexact HO

set_option backward.isDefEq.respectTransparency.types false in
/-- Region 2: entered from every unscoped buffer at the contents before it, left at the contents after it. Its arrays are
    split out of the unscoped buffers and put back at what the write-backs leave; the generator register and the scoped
    buffers go into the region's invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (X4 m) c).loose
  hwaits := Pipeline.hwaits_of_owed_zero _ _ _ _ L lv 2 fun c t => owed_eq2 (X4 m) c t
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (X4 m c)
  hentry c := by
    rw [Pipeline.ownSems0_none]
    have hsplit := Pipeline.arrays_of_unscopedBufs (p := 2) (pcfgs (F := F)) adm (pdats m) launch2.win launch2.arr_whole c
      ((pdats m 2 c).share_full fun w => q_eq2 (X4 m) c w) (X4 m c) fun w => A_eq2 (X4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 2 c).owed 0 = 0 from owed_eq2 (X4 m) c 0]
      icases HO with ⟨%W, HO⟩; iexists W; isplitr; · ipureintro; exact fun _ _ => Or.inl trivial
      iexact HO
    isplitl [Hp]; · iexact Hp
    iexact Hrest
  hin c := by
    have h : (Pipeline.ΦA spec2 c : sProp 𝕄) ⊢ (pdats m 2 c).Φ 0 := hin2 (X4 m) c
    unfold Pipeline.ΦA at h
    iintro ⟨Hp, -, Hr⟩
    iapply h
    isplitl [Hr]; · iexact Hr
    iexact Hp
  hout c := by
    rw [Pipeline.ownSems0_none]
    have h : (pdats m 2 c).Φ (Fin.last _) ⊢ (Pipeline.ΦA spec2 c : sProp 𝕄) := hout2 (X4 m) c
    unfold Pipeline.ΦA at h
    iintro H
    ihave HA := h $$ H
    icases HA with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun w => q_eq2 (X4 m) c w)
      (X4 m c) (X5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 2 c).owed (Fin.last _) = 0 from owed_eq2 (X4 m) c _]
    icases HO with ⟨%W, -, HO⟩; iexists W; iexact HO

set_option backward.isDefEq.respectTransparency.types false in
/-- Region 3: entered from every unscoped buffer at the contents before it, left at the contents after it. Its arrays are
    split out of the unscoped buffers and put back at what the write-backs leave; the generator register and the scoped
    buffers go into the region's invariant and come back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (X6 m) c).loose
  hwaits := Pipeline.hwaits_of_owed_zero _ _ _ _ L lv 3 fun c t => owed_eq3 (X6 m) c t
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (X6 m c)
  hentry c := by
    rw [Pipeline.ownSems0_none]
    have hsplit := Pipeline.arrays_of_unscopedBufs (p := 3) (pcfgs (F := F)) adm (pdats m) launch3.win launch3.arr_whole c
      ((pdats m 3 c).share_full fun w => q_eq3 (X6 m) c w) (X6 m c) fun w => A_eq3 (X6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 3 c).owed 0 = 0 from owed_eq3 (X6 m) c 0]
      icases HO with ⟨%W, HO⟩; iexists W; isplitr; · ipureintro; exact fun _ _ => Or.inl trivial
      iexact HO
    isplitl [Hp]; · iexact Hp
    iexact Hrest
  hin c := by
    have h : (Pipeline.ΦA spec3 c : sProp 𝕄) ⊢ (pdats m 3 c).Φ 0 := hin3 (X6 m) c
    unfold Pipeline.ΦA at h
    iintro ⟨Hp, -, Hr⟩
    iapply h
    isplitl [Hr]; · iexact Hr
    iexact Hp
  hout c := by
    rw [Pipeline.ownSems0_none]
    have h : (pdats m 3 c).Φ (Fin.last _) ⊢ (Pipeline.ΦA spec3 c : sProp 𝕄) := hout3 (X6 m) c
    unfold Pipeline.ΦA at h
    iintro H
    ihave HA := h $$ H
    icases HA with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun w => q_eq3 (X6 m) c w)
      (X6 m c) (X7 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m 3 c).owed (Fin.last _) = 0 from owed_eq3 (X6 m) c _]
    icases HO with ⟨%W, -, HO⟩; iexists W; iexact HO

/-! ## The program as segments, and the launch -/

/-- The seven segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)),
    .region (reg3 m) ]
/-- The program IS the run of the segments. -/
theorem main_run (c : Dev nD) : main (F := F) c = Pipeline.Seg.run (segs m) := (main_chain c).trans (by chain_rfl)

set_option backward.isDefEq.respectTransparency.types false in
/-- From any memory with zero counters every weakly fair execution of the program terminates, nothing faulting, and every
    final memory holds each unscoped buffer at the last contents `W7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The arguments end as launched; the result ends at the last layer's array -/

theorem W7_main_arg0 (c : Dev nD) : W7 m c (Proc.devRef .tc main_arg0) = m ((c : Thread nD τ).loc main_arg0) :=
  (W7_keep m c main_arg0 (by decide)).trans <| (W6_keep m c main_arg0 (by decide)).trans <| (W5_keep m c main_arg0 (by decide)).trans <|
  (W4_keep m c main_arg0 (by decide)).trans <| (W3_keep m c main_arg0 (by decide)).trans <| (W2_keep m c main_arg0 (by decide)).trans <|
  (W1_keep m c main_arg0 (by decide)).trans rfl
theorem W7_main_arg1 (c : Dev nD) : W7 m c (Proc.devRef .tc main_arg1) = m ((c : Thread nD τ).loc main_arg1) :=
  (W7_keep m c main_arg1 (by decide)).trans <| (W6_keep m c main_arg1 (by decide)).trans <| (W5_keep m c main_arg1 (by decide)).trans <|
  (W4_keep m c main_arg1 (by decide)).trans <| (W3_keep m c main_arg1 (by decide)).trans <| (W2_keep m c main_arg1 (by decide)).trans <|
  (W1_keep m c main_arg1 (by decide)).trans rfl
theorem W7_main_arg2 (c : Dev nD) : W7 m c (Proc.devRef .tc main_arg2) = m ((c : Thread nD τ).loc main_arg2) :=
  (W7_keep m c main_arg2 (by decide)).trans <| (W6_keep m c main_arg2 (by decide)).trans <| (W5_keep m c main_arg2 (by decide)).trans <|
  (W4_keep m c main_arg2 (by decide)).trans <| (W3_keep m c main_arg2 (by decide)).trans <| (W2_keep m c main_arg2 (by decide)).trans <|
  (W1_keep m c main_arg2 (by decide)).trans rfl
theorem W7_main_arg3 (c : Dev nD) : W7 m c (Proc.devRef .tc main_arg3) = m ((c : Thread nD τ).loc main_arg3) :=
  (W7_keep m c main_arg3 (by decide)).trans <| (W6_keep m c main_arg3 (by decide)).trans <| (W5_keep m c main_arg3 (by decide)).trans <|
  (W4_keep m c main_arg3 (by decide)).trans <| (W3_keep m c main_arg3 (by decide)).trans <| (W2_keep m c main_arg3 (by decide)).trans <|
  (W1_keep m c main_arg3 (by decide)).trans rfl
theorem W7_main_arg4 (c : Dev nD) : W7 m c (Proc.devRef .tc main_arg4) = m ((c : Thread nD τ).loc main_arg4) :=
  (W7_keep m c main_arg4 (by decide)).trans <| (W6_keep m c main_arg4 (by decide)).trans <| (W5_keep m c main_arg4 (by decide)).trans <|
  (W4_keep m c main_arg4 (by decide)).trans <| (W3_keep m c main_arg4 (by decide)).trans <| (W2_keep m c main_arg4 (by decide)).trans <|
  (W1_keep m c main_arg4 (by decide)).trans rfl
theorem W7_main_arg5 (c : Dev nD) : W7 m c (Proc.devRef .tc main_arg5) = m ((c : Thread nD τ).loc main_arg5) :=
  (W7_keep m c main_arg5 (by decide)).trans <| (W6_keep m c main_arg5 (by decide)).trans <| (W5_keep m c main_arg5 (by decide)).trans <|
  (W4_keep m c main_arg5 (by decide)).trans <| (W3_keep m c main_arg5 (by decide)).trans <| (W2_keep m c main_arg5 (by decide)).trans <|
  (W1_keep m c main_arg5 (by decide)).trans rfl
theorem W7_main_arg6 (c : Dev nD) : W7 m c (Proc.devRef .tc main_arg6) = m ((c : Thread nD τ).loc main_arg6) :=
  (W7_keep m c main_arg6 (by decide)).trans <| (W6_keep m c main_arg6 (by decide)).trans <| (W5_keep m c main_arg6 (by decide)).trans <|
  (W4_keep m c main_arg6 (by decide)).trans <| (W3_keep m c main_arg6 (by decide)).trans <| (W2_keep m c main_arg6 (by decide)).trans <|
  (W1_keep m c main_arg6 (by decide)).trans rfl
theorem W7_main_arg7 (c : Dev nD) : W7 m c (Proc.devRef .tc main_arg7) = m ((c : Thread nD τ).loc main_arg7) :=
  (W7_keep m c main_arg7 (by decide)).trans <| (W6_keep m c main_arg7 (by decide)).trans <| (W5_keep m c main_arg7 (by decide)).trans <|
  (W4_keep m c main_arg7 (by decide)).trans <| (W3_keep m c main_arg7 (by decide)).trans <| (W2_keep m c main_arg7 (by decide)).trans <|
  (W1_keep m c main_arg7 (by decide)).trans rfl

/-- The result array ends at what region 3's write-backs leave in it. -/
theorem W7_main_v0 (c : Dev nD) : W7 m c (Proc.devRef .tc main_v0) = (dat3 (X6 m) c).arrAt 4 cfg3.N := W7_arr m c 4

/-- The run read at the result and the arguments. -/
theorem run_result : θ_run defs (onTc (τ := τ) (main (F := F))) ⟨m, fun _ => 0, ρ⟩ (fun r => ∀ c : Dev nD,
      r.2.mem ((c.tc : Thread nD τ).loc main_v0) = (dat3 (X6 m) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v0 (by decide))).trans (W7_main_v0 m c),
    (h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c)⟩) (run m ρ)

end Cert.KernelIdeal.Gcn

end
-- ==== Proof.GcnSpec.lean ====
/-
  The mathematics of a dense graph-convolution layer over the extended reals, index by index:
  a feature transform  (h · W)(r, j) = Σ_k h(r, k) · W(k, j),  an aggregation  (adj · z)(r, j) = Σ_k adj(r, k) · z(k, j),
  and the bias-and-rectify step  max(z(r, j) + b(j), 0).  A layer is their composition, and the network three layers.
  Nothing here mentions a program: both programs' results are shown to be these functions of the argument arrays.
-/
import Idealize.ShloMosaic.PureOps.Ideal
import Idealize.ShloMosaic.Lib.ValueIdx

noncomputable section

namespace Cert.GcnSpec

open Idealize.ShloMosaic Idealize.ShloMosaic.ValueIdx

abbrev M4096x256 : Shape := ⟨2, ![4096, 256]⟩
abbrev M4096x4096 : Shape := ⟨2, ![4096, 4096]⟩
abbrev M256x256 : Shape := ⟨2, ![256, 256]⟩
abbrev M256 : Shape := ⟨1, ![256]⟩

/-- The feature transform: entry (r, j) of h · W is the sum over k < 256 of h(r, k) · W(k, j). -/
def featProd (h : M4096x256.Idx → EReal) (w : M256x256.Idx → EReal) : M4096x256.Idx → EReal :=
  fun i => ∑ k : Fin 256, h (ix2 (i 0 : Fin 4096) k) * w (ix2 k (i 1 : Fin 256))

/-- The aggregation: entry (r, j) of adj · z is the sum over k < 4096 of adj(r, k) · z(k, j). -/
def adjProd (adj : M4096x4096.Idx → EReal) (z : M4096x256.Idx → EReal) : M4096x256.Idx → EReal :=
  fun i => ∑ k : Fin 4096, adj (ix2 (i 0 : Fin 4096) k) * z (ix2 k (i 1 : Fin 256))

/-- Bias and rectification: entry (r, j) is max(z(r, j) + b(j), 0). -/
def biasRelu (z : M4096x256.Idx → EReal) (b : M256.Idx → EReal) : M4096x256.Idx → EReal :=
  fun i => max (z i + b (ix1 (i 1 : Fin 256))) 0

/-- A bias kept as a single row [1, 256], read as the vector of its entries. -/
def rowOf (r : (⟨2, ![1, 256]⟩ : Shape).Idx → EReal) : M256.Idx → EReal :=
  fun j => r (ix2 (0 : Fin 1) (j 0 : Fin 256))

/-- One layer WITHOUT its feature transform: relu(adj · z + b). -/
def aggregate (adj : M4096x4096.Idx → EReal) (z : M4096x256.Idx → EReal) (b : M256.Idx → EReal) : M4096x256.Idx → EReal :=
  biasRelu (adjProd adj z) b

/-- The three stacked layers: relu(adj·(relu(adj·(relu(adj·(x·W1)+b1)·W2)+b2)·W3)+b3). -/
def network (x : M4096x256.Idx → EReal) (adj : M4096x4096.Idx → EReal) (w1 : M256x256.Idx → EReal) (b1 : M256.Idx → EReal)
    (w2 : M256x256.Idx → EReal) (b2 : M256.Idx → EReal) (w3 : M256x256.Idx → EReal) (b3 : M256.Idx → EReal) : M4096x256.Idx → EReal :=
  aggregate adj (featProd (aggregate adj (featProd (aggregate adj (featProd x w1) b1) w2) b2) w3) b3

end Cert.GcnSpec

end
-- ==== Proof.Gcn.XWValue.lean ====
/-
  The value of the first feature transform over the extended reals.  The body's payload at entry (p, q) of a
  block is the sum over k < 256 of x-block(p, k) · W1(k, q): the product accumulates into a zero splat, the
  contraction runs over one axis, and the narrowing of the operands changes nothing at the ideal values.  Grid
  point t reads rows 512·t … 512·t + 511 of x and all of W1 and writes rows 512·t … 512·t + 511 of the result,
  so what it writes back is block t of the product x · W1; row r of the result lies in the block of point
  r / 512, so the eight blocks cover the array, and after the region the result array is x · W1, entry by entry.
-/
import proofs.«114786_g54460185313466_cont_9to1c4b_855_2_alg».proof.Proof.Gen.KernelIdeal.Launch
import proofs.«114786_g54460185313466_cont_9to1c4b_855_2_alg».proof.Proof.Gen.KernelIdeal.Skeleton
import proofs.«114786_g54460185313466_cont_9to1c4b_855_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws
import proofs.«114786_g54460185313466_cont_9to1c4b_855_2_alg».proof.Proof.GcnSpec
import proofs.«114786_g54460185313466_cont_9to1c4b_855_2_alg».proof.Proof.Gcn.XW

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## The matrix product's operand indices, axis by axis -/

theorem xw_lhs_0 (j : S512x256.Idx) (q : dot_S512x256_S256x256_S512x256_1_0_0_1_n_n.contr.Idx) :
    (dot_S512x256_S256x256_S512x256_1_0_0_1_n_n.lhsIdx j q 0).val = (j 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem xw_lhs_1 (j : S512x256.Idx) (q : dot_S512x256_S256x256_S512x256_1_0_0_1_n_n.contr.Idx) :
    (dot_S512x256_S256x256_S512x256_1_0_0_1_n_n.lhsIdx j q 1).val = (q ⟨0, by decide⟩).val :=
  dot_S512x256_S256x256_S512x256_1_0_0_1_n_n.lhsIdx_val_of_single rfl j q
theorem xw_rhs_0 (j : S512x256.Idx) (q : dot_S512x256_S256x256_S512x256_1_0_0_1_n_n.contr.Idx) :
    (dot_S512x256_S256x256_S512x256_1_0_0_1_n_n.rhsIdx j q 0).val = (q ⟨0, by decide⟩).val :=
  dot_S512x256_S256x256_S512x256_1_0_0_1_n_n.rhsIdx_val_of_single rfl j q
theorem xw_rhs_1 (j : S512x256.Idx) (q : dot_S512x256_S256x256_S512x256_1_0_0_1_n_n.contr.Idx) :
    (dot_S512x256_S256x256_S512x256_1_0_0_1_n_n.rhsIdx j q 1).val = (j 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-! ## The payload at an index -/

/-- Entry (p, q) of the body's payload: the sum over k of the left block at (p, k) times the right block at (k, q). -/
theorem xw_pay_apply (x : Vec Ideal S512x256 .f32) (w : Vec Ideal S256x256 .f32) (j : S512x256.Idx) :
    k0_pay1 (F := Ideal) x w j = ∑ k : Fin 256, x (ix2 (j 0 : Fin 512) k) * w (ix2 k (j 1 : Fin 256)) := by
  unfold k0_pay1
  show FloatOps.matmul dot_S512x256_S256x256_S512x256_1_0_0_1_n_n none (truncf (F := Ideal) .bf16 x bitsLt_bf16_f32) (truncf (F := Ideal) .bf16 w bitsLt_bf16_f32) (constant S512x256 .f32 0x00000000#32) j = _
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx j ((contrEquiv1 dot_S512x256_S256x256_S512x256_1_0_0_1_n_n 256 rfl rfl).symm k) = ix2 (j 0 : Fin 512) k := funext fun a => Fin.ext (by
    match a with
    | ⟨0, _⟩ => exact xw_lhs_0 _ _
    | ⟨1, _⟩ => exact (xw_lhs_1 _ _).trans hk)
  have er : dot_S512x256_S256x256_S512x256_1_0_0_1_n_n.rhsIdx j ((contrEquiv1 dot_S512x256_S256x256_S512x256_1_0_0_1_n_n 256 rfl rfl).symm k) = ix2 k (j 1 : Fin 256) := funext fun a => Fin.ext (by
    match a with
    | ⟨0, _⟩ => exact (xw_rhs_0 _ _).trans hk
    | ⟨1, _⟩ => exact xw_rhs_1 _ _)
  rw [el, er]
  rfl

/-! ## From blocks to the array -/

theorem xw_hz : (![0, 0] : Fin 2 → Nat) = fun _ => 0 := funext fun a => by fin_cases a <;> rfl

/-- The printed index maps over the grid: at point t the x window and the result window are on row block t, the
    W1 window on its one block, and no window moves along the columns. -/
theorem xw_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point t writes back is block t of the product of the two argument arrays as the region finds them. -/
theorem xw_flushed_eq (c : Dev nD) (t : Fin cfg0.N) :
    (dat0 (F := Ideal) V c).flushed 2 t
      = ((cfg0.win 2).blk t).view.read (Elt Ideal) (Cert.GcnSpec.featProd (V c main_arg0) (V c main_arg2)) := by
  show (cfg0.win 2).cut (grid0.coords t) ((dat0 (F := Ideal) V c).after 2 t) = _
  rw [after0_2]
  unfold out0_2
  rw [View.canon_unit_zero xw_hz]
  simp only [View.ld_unit_zero (S := S512x256) xw_hz, View.ld_unit_zero (S := S256x256) xw_hz]
  obtain ⟨e0, e1, e2, e3, e4, e5⟩ := xw_idx_facts t
  refine funext fun (j : S512x256.Idx) => ?_
  show k0_pay1 (F := Ideal) (iblk0 V c 0 t) (iblk0 V c 1 t) j
    = Cert.GcnSpec.featProd (V c main_arg0) (V c main_arg2) (((cfg0.win 2).blk t).view.emb j)
  rw [xw_pay_apply]
  simp only [Cert.GcnSpec.featProd]
  refine Finset.sum_congr rfl fun k _ => ?_
  have hj0 : (j 0).val < 512 := (j 0).isLt
  have hj1 : (j 1).val < 256 := (j 1).isLt
  have hk : k.val < 256 := k.isLt
  have h0 : ((cfg0.win 0).blk t).view.emb (ix2 (j 0 : Fin 512) k)
      = ix2 ((((cfg0.win 2).blk t).view.emb j) 0 : Fin 4096) k := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 256 + 1 * k.val = k.val; omega
  have h1 : ((cfg0.win 1).blk t).view.emb (ix2 k (j 1 : Fin 256))
      = ix2 k ((((cfg0.win 2).blk t).view.emb j) 1 : Fin 256) := by
    funext a; apply Fin.ext
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega
  have key : ∀ (A : S4096x256.Idx → EReal) (B : S256x256.Idx → EReal),
      A (((cfg0.win 0).blk t).view.emb (ix2 (j 0 : Fin 512) k)) * B (((cfg0.win 1).blk t).view.emb (ix2 k (j 1 : Fin 256)))
        = A (ix2 ((((cfg0.win 2).blk t).view.emb j) 0 : Fin 4096) k) * B (ix2 k ((((cfg0.win 2).blk t).view.emb j) 1 : Fin 256)) := by
    intro A B; rw [h0, h1]; rfl
  exact key (V c main_arg0) (V c main_arg2)

/-- An index of the result array is in point t's block iff each coordinate is in the block's range on its axis. -/
theorem xw_mem_blk (t : Fin cfg0.N) (i : S4096x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_call0_v0).slice (win0_2.rect t)).set ↔ _
  rw [View.set_slice_whole, Rect.mem_set_unit]
  exact Iff.rfl

/-- Every index of the result array is in some point's block: row r in that of point r / 512. -/
theorem xw_cover (i : S4096x256.Idx) :
    ∃ t : Fin cfg0.N, (cfg0.win 2).flush t = true ∧ i ∈ ((cfg0.win 2).blk t).view.set := by
  have hi0 : (i 0).val < 4096 := (i 0).isLt
  have hi1 : (i 1).val < 256 := (i 1).isLt
  obtain ⟨t, ht⟩ : ∃ t : Fin cfg0.N, t.val = (i 0).val / 512 :=
    ⟨⟨(i 0).val / 512, by show _ < grid0.N; rw [N_0]; omega⟩, rfl⟩
  obtain ⟨e0, e1, e2, e3, e4, e5⟩ := xw_idx_facts t
  refine ⟨t, flush0_2 t, ?_⟩
  rw [xw_mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 256 ≤ (i 1).val ∧ (i 1).val < win0_2.index t (1 : Fin 2) * 256 + 256; omega

/-- After the region the result array is the product x · W1 of the two argument arrays as the region found them. -/
theorem final0 (c : Dev nD) :
    ((dat0 (F := Ideal) V c).arrAt 2 cfg0.N : S4096x256.Idx → EReal) = Cert.GcnSpec.featProd (V c main_arg0) (V c main_arg2) :=
  (dat0 (F := Ideal) V c).arrAt_eq_of_cover 2 (Cert.GcnSpec.featProd (V c main_arg0) (V c main_arg2))
    (fun t _ => xw_flushed_eq V c t) xw_cover

end

end Cert.KernelIdeal.Gcn

end
-- ==== Proof.Gcn.BlockSum.lean ====
/-
  Regrouping a sum over 4096 terms into 4 consecutive blocks of 1024: the index k runs through
  kb · 1024 + kk for kb < 4, kk < 1024 exactly once, so in any additive commutative monoid — here the
  extended reals, with no finiteness asked of the entries — the sum over k is the sum over the blocks of
  the sums inside each block.
-/
import Mathlib.Data.EReal.Basic
import Mathlib.Data.Fintype.BigOperators
import Mathlib.Logic.Equiv.Fin.Basic
import Mathlib.Algebra.BigOperators.Group.Finset.Defs

namespace Cert.GcnSpec

/-- The sum of 4096 extended reals, block by block: Σ_k f(k) = Σ_{kb<4} Σ_{kk<1024} f(kb·1024 + kk).
    The pairs (kb, kk) are in bijection with the indices k, and a sum over pairs is the iterated sum. -/
theorem sum_blocks (f : Fin 4096 → EReal) :
    ∑ k : Fin 4096, f k = ∑ kb : Fin 4, ∑ kk : Fin 1024, f ⟨kb.val * 1024 + kk.val, by omega⟩ := by
  rw [← Fintype.sum_prod_type' (fun (kb : Fin 4) (kk : Fin 1024) => f ⟨kb.val * 1024 + kk.val, by omega⟩)]
  refine (Fintype.sum_equiv (finProdFinEquiv (m := 4) (n := 1024)) _ _ fun p => ?_).symm
  refine congrArg f (Fin.ext ?_)
  show p.1.val * 1024 + p.2.val = p.2.val + 1024 * p.1.val
  omega

end Cert.GcnSpec
-- ==== Proof.Gcn.LayerAlgebra.lean ====
/-
  One aggregation layer, block by block.  The kernel adds the aggregate of row r up in four steps, one per
  block of 1024 neighbours: the first step stores block 0's partial sum, each later step adds the next block's.  Here
  is the arithmetic behind that, over the extended reals, where addition is commutative and associative with no
  finiteness asked of the entries: entry (r, j) of adj · z is ((B0 + B1) + B2) + B3 with
  Bk = Σ_{q < 1024} adj(r, 1024·k + q) · z(1024·k + q, j);  and an output block whose accumulator holds adj · z on its
  rows holds, after bias, rectification and the product with the weight matrix, the layer's result on those rows.
-/
import proofs.«114786_g54460185313466_cont_9to1c4b_855_2_alg».proof.Proof.GcnSpec
import proofs.«114786_g54460185313466_cont_9to1c4b_855_2_alg».proof.Proof.Gcn.BlockSum
import Mathlib.Algebra.BigOperators.Fin

noncomputable section

namespace Cert.GcnSpec

open Idealize.ShloMosaic Idealize.ShloMosaic.ValueIdx

/-- Entry (p, q) of block (i, k) of the adjacency matrix, the blocks 512 × 1024. -/
def adjAt (adj : M4096x4096.Idx → EReal) (i : Fin 8) (k : Fin 4) (p : Fin 512) (q : Fin 1024) : EReal :=
  adj (ix2 (⟨i.val * 512 + p.val, by omega⟩ : Fin 4096) (⟨k.val * 1024 + q.val, by omega⟩ : Fin 4096))

/-- Entry (q, j) of block k of a feature array, the blocks 1024 × 256. -/
def featAt (z : M4096x256.Idx → EReal) (k : Fin 4) (q : Fin 1024) (j : Fin 256) : EReal :=
  z (ix2 (⟨k.val * 1024 + q.val, by omega⟩ : Fin 4096) j)

/-- The partial sum of entry (r, j) of adj · z over the k-th block of 1024 neighbours. -/
def blockTerm (adj : M4096x4096.Idx → EReal) (z : M4096x256.Idx → EReal) (r : Fin 4096) (j : Fin 256) (k : Fin 4) : EReal :=
  ∑ q : Fin 1024, adj (ix2 r (⟨k.val * 1024 + q.val, by omega⟩ : Fin 4096)) * z (ix2 (⟨k.val * 1024 + q.val, by omega⟩ : Fin 4096) j)

/-- Entry (r, j) of adj · z is the four blocks' partial sums added up in order. -/
theorem adjProd_four_blocks (adj : M4096x4096.Idx → EReal) (z : M4096x256.Idx → EReal) (r : Fin 4096) (j : Fin 256) :
    adjProd adj z (ix2 r j)
      = ((blockTerm adj z r j 0 + blockTerm adj z r j 1) + blockTerm adj z r j 2) + blockTerm adj z r j 3 := by
  refine (sum_blocks (fun k : Fin 4096 => adj (ix2 r k) * z (ix2 k j))).trans ?_
  rw [Fin.sum_univ_four]
  rfl

/-- The feature transform at entry (r, j). -/
theorem featProd_apply (h : M4096x256.Idx → EReal) (w : M256x256.Idx → EReal) (r : Fin 4096) (j : Fin 256) :
    featProd h w (ix2 r j) = ∑ l : Fin 256, h (ix2 r l) * w (ix2 l j) := rfl

/-- Bias and rectification at entry (r, l), the bias kept as a single row. -/
theorem biasRelu_rowOf_apply (z : M4096x256.Idx → EReal) (b : (⟨2, ![1, 256]⟩ : Shape).Idx → EReal) (r : Fin 4096) (l : Fin 256) :
    biasRelu z (rowOf b) (ix2 r l) = max (z (ix2 r l) + b (ix2 (0 : Fin 1) l)) 0 := rfl

/-- A layer's output at entry (r, j) from an accumulator row that holds adj · z on row r: bias, rectification and the
    product with the weight matrix applied to the accumulator's row are the layer's result there. -/
theorem layer_entry (adj : M4096x4096.Idx → EReal) (z : M4096x256.Idx → EReal) (b : (⟨2, ![1, 256]⟩ : Shape).Idx → EReal)
    (w : M256x256.Idx → EReal) (r : Fin 4096) (j : Fin 256) (acc : Fin 256 → EReal)
    (hacc : ∀ l : Fin 256, acc l = adjProd adj z (ix2 r l)) :
    ∑ l : Fin 256, max (acc l + b (ix2 (0 : Fin 1) l)) 0 * w (ix2 l j)
      = featProd (biasRelu (adjProd adj z) (rowOf b)) w (ix2 r j) := by
  rw [featProd_apply]
  refine Finset.sum_congr rfl fun l _ => ?_
  rw [biasRelu_rowOf_apply, hacc l]

/-- The last layer's output at entry (r, j) from an accumulator entry that holds adj · z there: bias and
    rectification alone. -/
theorem last_layer_entry (adj : M4096x4096.Idx → EReal) (z : M4096x256.Idx → EReal) (b : (⟨2, ![1, 256]⟩ : Shape).Idx → EReal)
    (r : Fin 4096) (j : Fin 256) (acc : EReal) (hacc : acc = adjProd adj z (ix2 r j)) :
    max (acc + b (ix2 (0 : Fin 1) j)) 0 = biasRelu (adjProd adj z) (rowOf b) (ix2 r j) := by
  rw [biasRelu_rowOf_apply, hacc]

/-- THE FOUR STEPS. Row block i of the layer: the adjacency blocks a0 … a3 (512 × 1024) are blocks (i, 0) … (i, 3) of
    adj, the feature blocks y0 … y3 (1024 × 256) are blocks 0 … 3 of z.  An entry that is restarted at block 0's
    product and then has the products of blocks 1, 2, 3 added to it in turn ends at entry (512·i + p, j) of adj · z. -/
theorem four_steps_entry (adj : M4096x4096.Idx → EReal) (z : M4096x256.Idx → EReal) (i : Fin 8)
    (a0 a1 a2 a3 : (⟨2, ![512, 1024]⟩ : Shape).Idx → EReal) (y0 y1 y2 y3 : (⟨2, ![1024, 256]⟩ : Shape).Idx → EReal)
    (ha0 : ∀ (p : Fin 512) (q : Fin 1024), a0 (ix2 p q) = adjAt adj i 0 p q)
    (ha1 : ∀ (p : Fin 512) (q : Fin 1024), a1 (ix2 p q) = adjAt adj i 1 p q)
    (ha2 : ∀ (p : Fin 512) (q : Fin 1024), a2 (ix2 p q) = adjAt adj i 2 p q)
    (ha3 : ∀ (p : Fin 512) (q : Fin 1024), a3 (ix2 p q) = adjAt adj i 3 p q)
    (hy0 : ∀ (q : Fin 1024) (j : Fin 256), y0 (ix2 q j) = featAt z 0 q j)
    (hy1 : ∀ (q : Fin 1024) (j : Fin 256), y1 (ix2 q j) = featAt z 1 q j)
    (hy2 : ∀ (q : Fin 1024) (j : Fin 256), y2 (ix2 q j) = featAt z 2 q j)
    (hy3 : ∀ (q : Fin 1024) (j : Fin 256), y3 (ix2 q j) = featAt z 3 q j)
    (p : Fin 512) (j : Fin 256) (s0 s1 s2 s3 : EReal)
    (h0 : s0 = ∑ q : Fin 1024, a0 (ix2 p q) * y0 (ix2 q j))
    (h1 : s1 = s0 + ∑ q : Fin 1024, a1 (ix2 p q) * y1 (ix2 q j))
    (h2 : s2 = s1 + ∑ q : Fin 1024, a2 (ix2 p q) * y2 (ix2 q j))
    (h3 : s3 = s2 + ∑ q : Fin 1024, a3 (ix2 p q) * y3 (ix2 q j)) :
    s3 = adjProd adj z (ix2 (⟨i.val * 512 + p.val, by omega⟩ : Fin 4096) j) := by
  have b0 : ∑ q : Fin 1024, a0 (ix2 p q) * y0 (ix2 q j) = blockTerm adj z (⟨i.val * 512 + p.val, by omega⟩ : Fin 4096) j 0 :=
    Finset.sum_congr rfl fun q _ => by rw [ha0 p q, hy0 q j]; unfold adjAt featAt; rfl
  have b1 : ∑ q : Fin 1024, a1 (ix2 p q) * y1 (ix2 q j) = blockTerm adj z (⟨i.val * 512 + p.val, by omega⟩ : Fin 4096) j 1 :=
    Finset.sum_congr rfl fun q _ => by rw [ha1 p q, hy1 q j]; unfold adjAt featAt; rfl
  have b2 : ∑ q : Fin 1024, a2 (ix2 p q) * y2 (ix2 q j) = blockTerm adj z (⟨i.val * 512 + p.val, by omega⟩ : Fin 4096) j 2 :=
    Finset.sum_congr rfl fun q _ => by rw [ha2 p q, hy2 q j]; unfold adjAt featAt; rfl
  have b3 : ∑ q : Fin 1024, a3 (ix2 p q) * y3 (ix2 q j) = blockTerm adj z (⟨i.val * 512 + p.val, by omega⟩ : Fin 4096) j 3 :=
    Finset.sum_congr rfl fun q _ => by rw [ha3 p q, hy3 q j]; unfold adjAt featAt; rfl
  rw [adjProd_four_blocks, h3, h2, h1, h0, b0, b1, b2, b3]

end Cert.GcnSpec

end
-- ==== Proof.Gcn.LayerPayloads.lean ====
/-
  The payloads of the three aggregation layers over the extended reals, entry by entry.
  At the ideal values a narrowing of the operands is the identity, a cast to the same shape changes nothing, and a
  matrix product accumulated into a zero splat is the plain sum over its one contracted axis.  So, at entry (p, j)
  of a 512 × 256 block:
    the product of an adjacency block A (512 × 1024) with a feature block Z (1024 × 256) is  Σ_q A(p, q) · Z(q, j);
    the restart of the accumulator stores that sum, a later step stores  S(p, j) + Σ_q A(p, q) · Z(q, j);
    the last step of layers 1 and 2 stores  Σ_l max(S(p, l) + b(0, l), 0) · W(l, j)  (bias row broadcast down the
    rows, rectification against the zero splat, then the product with the next weight matrix);
    the last step of layer 3 stores  max(S(p, j) + b(0, j), 0).
-/
import proofs.«114786_g54460185313466_cont_9to1c4b_855_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Gcn

open Idealize.ShloMosaic Idealize.ShloMosaic.TcCoe Idealize.SL.Sem
open Cert.KernelIdeal Cert.KernelIdeal.Gen
open Idealize.ShloMosaic.ValueIdx

/-! ## The two matrix products' operand indices, axis by axis -/

/-- Adjacency block times feature block: the left operand's row is the output's row. -/
theorem agg_lhs_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
/-- … its column the contracted index. -/
theorem agg_lhs_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
/-- The right operand's row is the contracted index … -/
theorem agg_rhs_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
/-- … its column the output's column. -/
theorem agg_rhs_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- Rectified block times weight matrix: the left operand's row is the output's row. -/
theorem wgt_lhs_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
/-- … its column the contracted index. -/
theorem wgt_lhs_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
/-- The right operand's row is the contracted index … -/
theorem wgt_rhs_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
/-- … its column the output's column. -/
theorem wgt_rhs_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-! ## The two matrix products at an entry -/

/-- A 512 × 1024 by 1024 × 256 product accumulated into zero, at entry (p, j): the sum over the 1024 contracted
    positions of the left operand's row p times the right operand's column j. -/
theorem agg_matmul_apply {φ₁ φ₂ : FTy} (a : FVec Ideal S512x1024 φ₁) (z : FVec Ideal S1024x256 φ₂) (p : Fin 512) (j : Fin 256) :
    FloatOps.matmul dot_S512x1024_S1024x256_S512x256_1_0_0_1_n_n none a z (constant S512x256 .f32 0x00000000#32) (ix2 p j)
      = ∑ q : Fin 1024, a (ix2 p q) * z (ix2 q j) := by
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 p j) ((contrEquiv1 dot_S512x1024_S1024x256_S512x256_1_0_0_1_n_n 1024 rfl rfl).symm k) = ix2 p k := funext fun ax => Fin.ext (by
    match ax with
    | ⟨0, _⟩ => exact agg_lhs_0 _ _
    | ⟨1, _⟩ => exact (agg_lhs_1 _ _).trans hk)
  have er : dot_S512x1024_S1024x256_S512x256_1_0_0_1_n_n.rhsIdx (ix2 p j) ((contrEquiv1 dot_S512x1024_S1024x256_S512x256_1_0_0_1_n_n 1024 rfl rfl).symm k) = ix2 k j := funext fun ax => Fin.ext (by
    match ax with
    | ⟨0, _⟩ => exact (agg_rhs_0 _ _).trans hk
    | ⟨1, _⟩ => exact agg_rhs_1 _ _)
  rw [el, er]

/-- A 512 × 256 by 256 × 256 product accumulated into zero, at entry (p, j): the sum over the 256 contracted
    positions of the left operand's row p times the right operand's column j. -/
theorem wgt_matmul_apply {φ₁ φ₂ : FTy} (h : FVec Ideal S512x256 φ₁) (w : FVec Ideal S256x256 φ₂) (p : Fin 512) (j : Fin 256) :
    FloatOps.matmul dot_S512x256_S256x256_S512x256_1_0_0_1_n_n none h w (constant S512x256 .f32 0x00000000#32) (ix2 p j)
      = ∑ l : Fin 256, h (ix2 p l) * w (ix2 l j) := by
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p j) ((contrEquiv1 dot_S512x256_S256x256_S512x256_1_0_0_1_n_n 256 rfl rfl).symm k) = ix2 p k := funext fun ax => Fin.ext (by
    match ax with
    | ⟨0, _⟩ => exact wgt_lhs_0 _ _
    | ⟨1, _⟩ => exact (wgt_lhs_1 _ _).trans hk)
  have er : dot_S512x256_S256x256_S512x256_1_0_0_1_n_n.rhsIdx (ix2 p j) ((contrEquiv1 dot_S512x256_S256x256_S512x256_1_0_0_1_n_n 256 rfl rfl).symm k) = ix2 k j := funext fun ax => Fin.ext (by
    match ax with
    | ⟨0, _⟩ => exact (wgt_rhs_0 _ _).trans hk
    | ⟨1, _⟩ => exact wgt_rhs_1 _ _)
  rw [el, er]

/-! ## The rectified, biased block at an entry -/

/-- The accumulator plus the bias row broadcast down the rows, rectified against the zero splat, at entry (p, l):
    max(S(p, l) + b(0, l), 0). -/
theorem relu_bias_apply (s : FVec Ideal S512x256 .f32) (b : FVec Ideal S1x256 .f32) (p : Fin 512) (l : Fin 256) :
    maximumf (addf s (broadcastTo S512x256 (shapeCast S1x256 b shapeCasts_S1x256_S1x256) broadcasts_S1x256_S512x256))
        (broadcast S512x256 (Scalar.ofBits (F := Ideal) .f32 0x00000000#32)) (ix2 p l)
      = max (s (ix2 p l) + b (ix2 (0 : Fin 1) l)) 0 := by
  rw [maximumf_apply, addf_apply, broadcast_apply, shapeCast_self, broadcastTo_1b_ab_apply]
  show max (s (ix2 p l) + b (ix2 (0 : Fin 1) l)) (Ideal.ofBits .f32 0x00000000#32) = _
  rw [Ideal.ofBits_zero_f32]

/-! ## Layer 1's payloads -/

/-- The product of an adjacency block with a feature block, at entry (p, j). -/
theorem k1_pay1_apply (x0 : Vec Ideal S512x1024 .f32) (x1 : Vec Ideal S1024x256 .f32) (p : Fin 512) (j : Fin 256) :
    k1_pay1 (F := Ideal) x0 x1 (ix2 p j) = ∑ q : Fin 1024, x0 (ix2 p q) * x1 (ix2 q j) := by
  unfold k1_pay1
  show FloatOps.matmul dot_S512x1024_S1024x256_S512x256_1_0_0_1_n_n none (truncf (F := Ideal) .bf16 x0 bitsLt_bf16_f32)
      (truncf (F := Ideal) .bf16 (shapeCast S1024x256 x1 shapeCasts_S1024x256_S1024x256) bitsLt_bf16_f32)
      (constant S512x256 .f32 0x00000000#32) (ix2 p j) = _
  rw [shapeCast_self, agg_matmul_apply]
  refine Finset.sum_congr rfl fun q _ => ?_
  rw [truncf_apply, truncf_apply]

/-- What the restart of the accumulator stores, at entry (p, j): the block product alone. -/
theorem k1_pay2_apply (x0 : Vec Ideal S512x1024 .f32) (x1 : Vec Ideal S1024x256 .f32) (p : Fin 512) (j : Fin 256) :
    k1_pay2 (F := Ideal) x0 x1 (ix2 p j) = ∑ q : Fin 1024, x0 (ix2 p q) * x1 (ix2 q j) := by
  unfold k1_pay2
  show shapeCast S512x256 (k1_pay1 (F := Ideal) x0 x1) shapeCasts_S512x256_S512x256 (ix2 p j) = _
  rw [shapeCast_self, k1_pay1_apply]

/-- What a later step stores, at entry (p, j): the accumulator there plus the block product. -/
theorem k1_pay3_apply (x0 : Vec Ideal S512x1024 .f32) (x1 : Vec Ideal S1024x256 .f32) (s : Vec Ideal S512x256 .f32)
    (p : Fin 512) (j : Fin 256) :
    k1_pay3 (F := Ideal) x0 x1 s (ix2 p j) = s (ix2 p j) + ∑ q : Fin 1024, x0 (ix2 p q) * x1 (ix2 q j) := by
  unfold k1_pay3
  show shapeCast S512x256 (addf (F := Ideal) s (k1_pay1 (F := Ideal) x0 x1)) shapeCasts_S512x256_S512x256 (ix2 p j) = _
  rw [shapeCast_self, addf_apply, k1_pay1_apply]

/-- What the last step writes to the output block, at entry (p, j): the rectified, biased accumulator's row p times the
    next weight matrix's column j. -/
theorem k1_pay4_apply (s : Vec Ideal S512x256 .f32) (b : Vec Ideal S1x256 .f32) (w : Vec Ideal S256x256 .f32)
    (p : Fin 512) (j : Fin 256) :
    k1_pay4 (F := Ideal) s b w (ix2 p j)
      = ∑ l : Fin 256, max (s (ix2 p l) + b (ix2 (0 : Fin 1) l)) 0 * w (ix2 l j) := by
  unfold k1_pay4
  show FloatOps.matmul dot_S512x256_S256x256_S512x256_1_0_0_1_n_n none
      (truncf (F := Ideal) .bf16
        (maximumf (addf (F := Ideal) s (broadcastTo S512x256 (shapeCast S1x256 b shapeCasts_S1x256_S1x256) broadcasts_S1x256_S512x256))
          (broadcast S512x256 (Scalar.ofBits (F := Ideal) .f32 0x00000000#32))) bitsLt_bf16_f32)
      (truncf (F := Ideal) .bf16 w bitsLt_bf16_f32)
      (constant S512x256 .f32 0x00000000#32) (ix2 p j) = _
  rw [wgt_matmul_apply]
  refine Finset.sum_congr rfl fun l _ => ?_
  rw [truncf_apply, truncf_apply, relu_bias_apply]

/-! ## Layers 2 and 3: the same payloads, term for term -/

theorem k2_pay2_apply (x0 : Vec Ideal S512x1024 .f32) (x1 : Vec Ideal S1024x256 .f32) (p : Fin 512) (j : Fin 256) :
    k2_pay2 (F := Ideal) x0 x1 (ix2 p j) = ∑ q : Fin 1024, x0 (ix2 p q) * x1 (ix2 q j) :=
  k1_pay2_apply x0 x1 p j

theorem k2_pay3_apply (x0 : Vec Ideal S512x1024 .f32) (x1 : Vec Ideal S1024x256 .f32) (s : Vec Ideal S512x256 .f32)
    (p : Fin 512) (j : Fin 256) :
    k2_pay3 (F := Ideal) x0 x1 s (ix2 p j) = s (ix2 p j) + ∑ q : Fin 1024, x0 (ix2 p q) * x1 (ix2 q j) :=
  k1_pay3_apply x0 x1 s p j

theorem k2_pay4_apply (s : Vec Ideal S512x256 .f32) (b : Vec Ideal S1x256 .f32) (w : Vec Ideal S256x256 .f32)
    (p : Fin 512) (j : Fin 256) :
    k2_pay4 (F := Ideal) s b w (ix2 p j)
      = ∑ l : Fin 256, max (s (ix2 p l) + b (ix2 (0 : Fin 1) l)) 0 * w (ix2 l j) :=
  k1_pay4_apply s b w p j

theorem k3_pay2_apply (x0 : Vec Ideal S512x1024 .f32) (x1 : Vec Ideal S1024x256 .f32) (p : Fin 512) (j : Fin 256) :
    k3_pay2 (F := Ideal) x0 x1 (ix2 p j) = ∑ q : Fin 1024, x0 (ix2 p q) * x1 (ix2 q j) :=
  k1_pay2_apply x0 x1 p j

theorem k3_pay3_apply (x0 : Vec Ideal S512x1024 .f32) (x1 : Vec Ideal S1024x256 .f32) (s : Vec Ideal S512x256 .f32)
    (p : Fin 512) (j : Fin 256) :
    k3_pay3 (F := Ideal) x0 x1 s (ix2 p j) = s (ix2 p j) + ∑ q : Fin 1024, x0 (ix2 p q) * x1 (ix2 q j) :=
  k1_pay3_apply x0 x1 s p j

/-- What layer 3's last step writes, at entry (p, j): the rectified, biased accumulator there — no product follows. -/
theorem k3_pay4_apply (s : Vec Ideal S512x256 .f32) (b : Vec Ideal S1x256 .f32) (p : Fin 512) (j : Fin 256) :
    k3_pay4 (F := Ideal) s b (ix2 p j) = max (s (ix2 p j) + b (ix2 (0 : Fin 1) j)) 0 := by
  unfold k3_pay4
  exact relu_bias_apply s b p j

end Cert.KernelIdeal.Gcn

end
-- ==== Proof.Gcn.Layer1Value.lean ====
/-
  The value of the first aggregation layer over the extended reals.  Grid point 4·i + k (i < 8, k < 4) reads block
  (i, k) of adj (512 × 1024), block k of the previous layer's result z (1024 × 256), the bias row and the next weight
  matrix, and the accumulator.  At k = 0 the accumulator is restarted at the blocks' product, at k > 0 the product is
  added to it, so after k = 3 its entry (p, j) is ((B0 + B1) + B2) + B3 with Bk = Σ_q adj(512·i + p, 1024·k + q) ·
  z(1024·k + q, j), which is entry (512·i + p, j) of adj · z.  At k = 3 the body then writes max(acc + b, 0) · W to
  the output block, which is block i of the layer's result; row r of the result lies in the block written at point
  4·(r / 512) + 3, so the eight written blocks cover the array and after the region it holds
  relu(adj · z + b) · W, entry by entry.
-/
import proofs.«114786_g54460185313466_cont_9to1c4b_855_2_alg».proof.Proof.Gen.KernelIdeal.Launch
import proofs.«114786_g54460185313466_cont_9to1c4b_855_2_alg».proof.Proof.Gen.KernelIdeal.Skeleton
import proofs.«114786_g54460185313466_cont_9to1c4b_855_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws
import proofs.«114786_g54460185313466_cont_9to1c4b_855_2_alg».proof.Proof.GcnSpec
import proofs.«114786_g54460185313466_cont_9to1c4b_855_2_alg».proof.Proof.Gcn.BlockSum
import proofs.«114786_g54460185313466_cont_9to1c4b_855_2_alg».proof.Proof.Gcn.LayerAlgebra
import proofs.«114786_g54460185313466_cont_9to1c4b_855_2_alg».proof.Proof.Gcn.LayerPayloads
import proofs.«114786_g54460185313466_cont_9to1c4b_855_2_alg».proof.Proof.Gcn.Layer1

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open Cert.GcnSpec

/-! ## One run of the body, entry by entry -/

theorem l1_hz : (![0, 0] : Fin 2 → Nat) = fun _ => 0 := funext fun a => by fin_cases a <;> rfl

/-- The restarted accumulator at entry (p, j): the blocks' product there. -/
theorem acc1_A_apply (x0 : Vec Ideal S512x1024 .f32) (x1 : Vec Ideal S1024x256 .f32) (p : Fin 512) (j : Fin 256) :
    acc1_A (F := Ideal) x0 x1 (ix2 p j) = ∑ q : Fin 1024, x0 (ix2 p q) * x1 (ix2 q j) := by
  unfold acc1_A
  rw [View.canon_unit_zero l1_hz]
  simp only [View.ld_unit_zero (S := S512x1024) l1_hz, View.ld_unit_zero (S := S1024x256) l1_hz]
  exact k1_pay2_apply x0 x1 p j

/-- The accumulator after a later step at entry (p, j): what it held there plus the blocks' product. -/
theorem acc1_B_apply (x0 : Vec Ideal S512x1024 .f32) (x1 : Vec Ideal S1024x256 .f32) (xs : Vec Ideal S512x256 .f32)
    (p : Fin 512) (j : Fin 256) :
    acc1_B (F := Ideal) x0 x1 xs (ix2 p j) = xs (ix2 p j) + ∑ q : Fin 1024, x0 (ix2 p q) * x1 (ix2 q j) := by
  unfold acc1_B
  rw [View.canon_unit_zero l1_hz]
  simp only [View.ld_unit_zero (S := S512x1024) l1_hz, View.ld_unit_zero (S := S1024x256) l1_hz,
    View.ld_unit_zero (S := S512x256) l1_hz]
  exact k1_pay3_apply x0 x1 xs p j

/-- The output block after the last step at entry (p, j): the accumulator's row p, biased and rectified, times the
    weight matrix's column j. -/
theorem out1_4_apply (xs : Vec Ideal S512x256 .f32) (x2 : Vec Ideal S1x256 .f32) (x3 : Vec Ideal S256x256 .f32)
    (p : Fin 512) (j : Fin 256) :
    out1_4 (F := Ideal) xs x2 x3 (ix2 p j)
      = ∑ l : Fin 256, max (xs (ix2 p l) + x2 (ix2 (0 : Fin 1) l)) 0 * x3 (ix2 l j) := by
  unfold out1_4
  rw [View.canon_unit_zero l1_hz]
  simp only [View.ld_unit_zero (S := S512x256) l1_hz, View.ld_unit_zero (S := S1x256) l1_hz,
    View.ld_unit_zero (S := S256x256) l1_hz]
  exact k1_pay4_apply xs x2 x3 p j

/-! ## The blocks the points read -/

/-- The printed index maps over the grid: at point t = 4·i + k the adjacency window is on block (i, k), the window of
    the previous result on block (k, 0), the bias row and the weight matrix on their one block, the output window on
    block (i, 0). -/
theorem l1_idx_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 4 ∧ win1_4.index t (1 : Fin 2) = 0 :=
  (by decide +kernel : ∀ t : Fin grid1.N, _)

section
variable (V : (c : Dev nD) → (b : Ref sig .tc) → Buf (Elt Ideal) ((c : Thread nD τ).loc b))

/-- The adjacency block at point 4·i + k, entry (p, q): entry (512·i + p, 1024·k + q) of adj. -/
theorem l1_adj_block (c : Dev nD) (t : Fin cfg1.N) (i : Fin 8) (k : Fin 4) (hi : t.val / 4 = i.val) (hk : t.val % 4 = k.val)
    (p : Fin 512) (q : Fin 1024) :
    iblk1 (F := Ideal) V c 0 t (ix2 p q) = adjAt (V c main_arg1) i k p q := by
  obtain ⟨e0, e1, e2, e3, e4, e5, e6, e7, e8, e9⟩ := l1_idx_facts t
  have hp : p.val < 512 := p.isLt
  have hq : q.val < 1024 := q.isLt
  have hi8 : i.val < 8 := i.isLt
  have hk4 : k.val < 4 := k.isLt
  have h : ((cfg1.win 0).blk t).view.emb (ix2 p q)
      = ix2 (⟨i.val * 512 + p.val, by omega⟩ : Fin 4096) (⟨k.val * 1024 + q.val, by omega⟩ : Fin 4096) := by
    funext a; apply Fin.ext
    match a with
    | ⟨0, _⟩ => show win1_0.index t (0 : Fin 2) * 512 + 1 * p.val = i.val * 512 + p.val; omega
    | ⟨1, _⟩ => show win1_0.index t (1 : Fin 2) * 1024 + 1 * q.val = k.val * 1024 + q.val; omega
  show V c main_arg1 (((cfg1.win 0).blk t).view.emb (ix2 p q)) = _
  rw [h]
  rfl

/-- The block of the previous result at point 4·i + k, entry (q, j): entry (1024·k + q, j) of that array. -/
theorem l1_prev_block (c : Dev nD) (t : Fin cfg1.N) (k : Fin 4) (hk : t.val % 4 = k.val) (q : Fin 1024) (j : Fin 256) :
    iblk1 (F := Ideal) V c 1 t (ix2 q j) = featAt (V c main_call0_v0) k q j := by
  obtain ⟨e0, e1, e2, e3, e4, e5, e6, e7, e8, e9⟩ := l1_idx_facts t
  have hq : q.val < 1024 := q.isLt
  have hj : j.val < 256 := j.isLt
  have hk4 : k.val < 4 := k.isLt
  have h : ((cfg1.win 1).blk t).view.emb (ix2 q j) = ix2 (⟨k.val * 1024 + q.val, by omega⟩ : Fin 4096) j := by
    funext a; apply Fin.ext
    match a with
    | ⟨0, _⟩ => show win1_1.index t (0 : Fin 2) * 1024 + 1 * q.val = k.val * 1024 + q.val; omega
    | ⟨1, _⟩ => show win1_1.index t (1 : Fin 2) * 256 + 1 * j.val = j.val; omega
  show V c main_call0_v0 (((cfg1.win 1).blk t).view.emb (ix2 q j)) = _
  rw [h]
  rfl

/-- The bias window's block is the whole bias row at every point. -/
theorem l1_bias_block (c : Dev nD) (t : Fin cfg1.N) (l : Fin 256) :
    iblk1 (F := Ideal) V c 2 t (ix2 (0 : Fin 1) l) = V c main_call0_v1 (ix2 (0 : Fin 1) l) := by
  obtain ⟨e0, e1, e2, e3, e4, e5, e6, e7, e8, e9⟩ := l1_idx_facts t
  have hl : l.val < 256 := l.isLt
  have h : ((cfg1.win 2).blk t).view.emb (ix2 (0 : Fin 1) l) = ix2 (0 : Fin 1) l := by
    funext a; apply Fin.ext
    match a with
    | ⟨0, _⟩ => show win1_2.index t (0 : Fin 2) * 1 + 1 * ((0 : Fin 1) : ℕ) = ((0 : Fin 1) : ℕ); omega
    | ⟨1, _⟩ => show win1_2.index t (1 : Fin 2) * 256 + 1 * l.val = l.val; omega
  show V c main_call0_v1 (((cfg1.win 2).blk t).view.emb (ix2 (0 : Fin 1) l)) = _
  rw [h]

/-- The weight window's block is the whole weight matrix at every point. -/
theorem l1_wgt_block (c : Dev nD) (t : Fin cfg1.N) (l : Fin 256) (j : Fin 256) :
    iblk1 (F := Ideal) V c 3 t (ix2 l j) = V c main_arg4 (ix2 l j) := by
  obtain ⟨e0, e1, e2, e3, e4, e5, e6, e7, e8, e9⟩ := l1_idx_facts t
  have hl : l.val < 256 := l.isLt
  have hj : j.val < 256 := j.isLt
  have h : ((cfg1.win 3).blk t).view.emb (ix2 l j) = ix2 l j := by
    funext a; apply Fin.ext
    match a with
    | ⟨0, _⟩ => show win1_3.index t (0 : Fin 2) * 256 + 1 * l.val = l.val; omega
    | ⟨1, _⟩ => show win1_3.index t (1 : Fin 2) * 256 + 1 * j.val = j.val; omega
  show V c main_arg4 (((cfg1.win 3).blk t).view.emb (ix2 l j)) = _
  rw [h]

/-! ## The accumulator after the fourth step of a row block -/

/-- The accumulator's contents do not depend on how the position is written. -/
theorem l1_accAt_congr (c : Dev nD) {n n' : ℕ} (e : n = n') (h : n < cfg1.N) (h' : n' < cfg1.N) :
    accAt1 (F := Ideal) V c n h = accAt1 (F := Ideal) V c n' h' := by
  subst e; rfl

/-- After the fourth point of row block i the accumulator's entry (p, j) is entry (512·i + p, j) of adj · z: the
    restart at the first point and the three additions, read entry by entry, are the four blocks' partial sums in order. -/
theorem l1_acc_rowblock (c : Dev nD) (i : Fin 8) (h : 4 * i.val + 1 + 1 + 1 < cfg1.N) (p : Fin 512) (j : Fin 256) :
    accAt1 (F := Ideal) V c (4 * i.val + 1 + 1 + 1) h (ix2 p j)
      = adjProd (V c main_arg1) (V c main_call0_v0) (ix2 (⟨i.val * 512 + p.val, by omega⟩ : Fin 4096) j) := by
  have h2 : 4 * i.val + 1 + 1 < cfg1.N := Nat.lt_of_succ_lt h
  have h1 : 4 * i.val + 1 < cfg1.N := Nat.lt_of_succ_lt h2
  have h0 : 4 * i.val < cfg1.N := Nat.lt_of_succ_lt h1
  exact four_steps_entry (V c main_arg1) (V c main_call0_v0) i
    (iblk1 (F := Ideal) V c 0 ⟨4 * i.val, h0⟩) (iblk1 (F := Ideal) V c 0 ⟨4 * i.val + 1, h1⟩)
    (iblk1 (F := Ideal) V c 0 ⟨4 * i.val + 1 + 1, h2⟩) (iblk1 (F := Ideal) V c 0 ⟨4 * i.val + 1 + 1 + 1, h⟩)
    (iblk1 (F := Ideal) V c 1 ⟨4 * i.val, h0⟩) (iblk1 (F := Ideal) V c 1 ⟨4 * i.val + 1, h1⟩)
    (iblk1 (F := Ideal) V c 1 ⟨4 * i.val + 1 + 1, h2⟩) (iblk1 (F := Ideal) V c 1 ⟨4 * i.val + 1 + 1 + 1, h⟩)
    (fun p q => l1_adj_block V c ⟨4 * i.val, h0⟩ i 0 (by show 4 * i.val / 4 = i.val; omega) (by show 4 * i.val % 4 = 0; omega) p q)
    (fun p q => l1_adj_block V c ⟨4 * i.val + 1, h1⟩ i 1 (by show (4 * i.val + 1) / 4 = i.val; omega) (by show (4 * i.val + 1) % 4 = 1; omega) p q)
    (fun p q => l1_adj_block V c ⟨4 * i.val + 1 + 1, h2⟩ i 2 (by show (4 * i.val + 1 + 1) / 4 = i.val; omega) (by show (4 * i.val + 1 + 1) % 4 = 2; omega) p q)
    (fun p q => l1_adj_block V c ⟨4 * i.val + 1 + 1 + 1, h⟩ i 3 (by show (4 * i.val + 1 + 1 + 1) / 4 = i.val; omega) (by show (4 * i.val + 1 + 1 + 1) % 4 = 3; omega) p q)
    (fun q j => l1_prev_block V c ⟨4 * i.val, h0⟩ 0 (by show 4 * i.val % 4 = 0; omega) q j)
    (fun q j => l1_prev_block V c ⟨4 * i.val + 1, h1⟩ 1 (by show (4 * i.val + 1) % 4 = 1; omega) q j)
    (fun q j => l1_prev_block V c ⟨4 * i.val + 1 + 1, h2⟩ 2 (by show (4 * i.val + 1 + 1) % 4 = 2; omega) q j)
    (fun q j => l1_prev_block V c ⟨4 * i.val + 1 + 1 + 1, h⟩ 3 (by show (4 * i.val + 1 + 1 + 1) % 4 = 3; omega) q j)
    p j
    (accAt1 (F := Ideal) V c (4 * i.val) h0 (ix2 p j)) (accAt1 (F := Ideal) V c (4 * i.val + 1) h1 (ix2 p j))
    (accAt1 (F := Ideal) V c (4 * i.val + 1 + 1) h2 (ix2 p j)) (accAt1 (F := Ideal) V c (4 * i.val + 1 + 1 + 1) h (ix2 p j))
    ((congrFun (accAt1_reset (F := Ideal) V c (4 * i.val) h0 (by omega)) (ix2 p j)).trans (acc1_A_apply _ _ p j))
    ((congrFun (accAt1_step (F := Ideal) V c (4 * i.val) h1 (by omega)) (ix2 p j)).trans (acc1_B_apply _ _ _ p j))
    ((congrFun (accAt1_step (F := Ideal) V c (4 * i.val + 1) h2 (by omega)) (ix2 p j)).trans (acc1_B_apply _ _ _ p j))
    ((congrFun (accAt1_step (F := Ideal) V c (4 * i.val + 1 + 1) h (by omega)) (ix2 p j)).trans (acc1_B_apply _ _ _ p j))

/-! ## From blocks to the array -/

/-- What the output window's buffer holds after a point with k = 3, at entry y of the block: the layer's result at
    the entry of the array that y is in the block of that point. -/
theorem l1_block_entry (c : Dev nD) (t : Fin cfg1.N) (h3 : t.val % 4 = 3) (y : S512x256.Idx) :
    outAt1 (F := Ideal) V c t y
      = featProd (biasRelu (adjProd (V c main_arg1) (V c main_call0_v0)) (rowOf (V c main_call0_v1))) (V c main_arg4) (((cfg1.win 4).blk t).view.emb y) := by
  obtain ⟨p, j, rfl⟩ : ∃ (p : Fin 512) (j : Fin 256), y = ix2 p j := ⟨y 0, y 1, eq_ix2 y⟩
  have hN : t.val < 32 := lt_of_lt_of_eq t.isLt (show cfg1.N = 32 from N_1)
  have hp : p.val < 512 := p.isLt
  have hj : j.val < 256 := j.isLt
  obtain ⟨i, hi⟩ : ∃ i : Fin 8, t.val = 4 * i.val + 1 + 1 + 1 := ⟨⟨t.val / 4, by omega⟩, by show t.val = 4 * (t.val / 4) + 1 + 1 + 1; omega⟩
  have hi8 : i.val < 8 := i.isLt
  obtain ⟨e0, e1, e2, e3, e4, e5, e6, e7, e8, e9⟩ := l1_idx_facts t
  have hemb : ((cfg1.win 4).blk t).view.emb (ix2 p j) = ix2 (⟨i.val * 512 + p.val, by omega⟩ : Fin 4096) j := by
    funext a; apply Fin.ext
    match a with
    | ⟨0, _⟩ => show win1_4.index t (0 : Fin 2) * 512 + 1 * p.val = i.val * 512 + p.val; omega
    | ⟨1, _⟩ => show win1_4.index t (1 : Fin 2) * 256 + 1 * j.val = j.val; omega
  have hacc : ∀ l : Fin 256, accAt1 (F := Ideal) V c t.val t.isLt (ix2 p l)
      = adjProd (V c main_arg1) (V c main_call0_v0) (ix2 (⟨i.val * 512 + p.val, by omega⟩ : Fin 4096) l) := fun l =>
    (congrFun (l1_accAt_congr V c hi t.isLt (lt_of_eq_of_lt hi.symm t.isLt)) (ix2 p l)).trans
      (l1_acc_rowblock V c i (lt_of_eq_of_lt hi.symm t.isLt) p l)
  rw [hemb]
  unfold outAt1
  rw [out1_4_apply]
  refine (Finset.sum_congr rfl fun l _ => ?_).trans
    (layer_entry (V c main_arg1) (V c main_call0_v0) (V c main_call0_v1) (V c main_arg4) (⟨i.val * 512 + p.val, by omega⟩ : Fin 4096) j
      (fun l => accAt1 (F := Ideal) V c t.val t.isLt (ix2 p l)) hacc)
  rw [l1_bias_block, l1_wgt_block]

/-- What a point with k = 3 writes back is its block of the layer's result on the arrays as the region finds them. -/
theorem l1_flushed_eq (c : Dev nD) (t : Fin cfg1.N) (hf : (cfg1.win 4).flush t = true) :
    (dat1 (F := Ideal) V c).flushed 4 t
      = ((cfg1.win 4).blk t).view.read (Elt Ideal) (featProd (biasRelu (adjProd (V c main_arg1) (V c main_call0_v0)) (rowOf (V c main_call0_v1))) (V c main_arg4)) := by
  have h3 : t.val % 4 = 3 := (flush1_4 t).mp hf
  show (cfg1.win 4).cut (grid1.coords t) ((dat1 (F := Ideal) V c).after 4 t) = _
  rw [after1_4]
  funext y
  show outAt1 (F := Ideal) V c t y
    = featProd (biasRelu (adjProd (V c main_arg1) (V c main_call0_v0)) (rowOf (V c main_call0_v1))) (V c main_arg4) (((cfg1.win 4).blk t).view.emb y)
  exact l1_block_entry V c t h3 y

/-- An index of the result array is in point t's block iff each coordinate is in the block's range on its axis. -/
theorem l1_mem_blk (t : Fin cfg1.N) (i : S4096x256.Idx) :
    i ∈ ((cfg1.win 4).blk t).view.set ↔ ∀ a : Fin 2, win1_4.index t a * S512x256.size a ≤ (i a).val ∧ (i a).val < win1_4.index t a * S512x256.size a + S512x256.size a := by
  show i ∈ ((View.whole main_call0_v2).slice (win1_4.rect t)).set ↔ _
  rw [View.set_slice_whole, Rect.mem_set_unit]
  exact Iff.rfl

/-- Every index of the result array is in the block some point with k = 3 writes back: row r in that of point
    4·(r / 512) + 3. -/
theorem l1_cover (i : S4096x256.Idx) :
    ∃ t : Fin cfg1.N, (cfg1.win 4).flush t = true ∧ i ∈ ((cfg1.win 4).blk t).view.set := by
  have hi0 : (i 0).val < 4096 := (i 0).isLt
  have hi1 : (i 1).val < 256 := (i 1).isLt
  obtain ⟨t, ht⟩ : ∃ t : Fin cfg1.N, t.val = 4 * ((i 0).val / 512) + 3 :=
    ⟨⟨4 * ((i 0).val / 512) + 3, by show _ < grid1.N; rw [N_1]; omega⟩, rfl⟩
  obtain ⟨e0, e1, e2, e3, e4, e5, e6, e7, e8, e9⟩ := l1_idx_facts t
  refine ⟨t, (flush1_4 t).mpr (by omega), ?_⟩
  rw [l1_mem_blk]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 256 ≤ (i 1).val ∧ (i 1).val < win1_4.index t (1 : Fin 2) * 256 + 256; omega

/-- After the region the result array is the layer's result on the arrays as the region found them. -/
theorem final1 (c : Dev nD) :
    ((dat1 (F := Ideal) V c).arrAt 4 cfg1.N : S4096x256.Idx → EReal)
      = featProd (biasRelu (adjProd (V c main_arg1) (V c main_call0_v0)) (rowOf (V c main_call0_v1))) (V c main_arg4) :=
  (dat1 (F := Ideal) V c).arrAt_eq_of_cover 4 (featProd (biasRelu (adjProd (V c main_arg1) (V c main_call0_v0)) (rowOf (V c main_call0_v1))) (V c main_arg4))
    (fun t hf => l1_flushed_eq V c t hf) l1_cover

end

end Cert.KernelIdeal.Gcn

end
-- ==== Proof.Gcn.Layer3Value.lean ====
/-
  The value of the third aggregation layer over the extended reals.  Grid point 4·i + k (i < 8, k < 4) reads block
  (i, k) of adj (512 × 1024), block k of the previous layer's result z (1024 × 256), the bias row and the accumulator.  At k = 0 the accumulator is restarted at the blocks' product, at k > 0 the product is
  added to it, so after k = 3 its entry (p, j) is ((B0 + B1) + B2) + B3 with Bk = Σ_q adj(512·i + p, 1024·k + q) ·
  z(1024·k + q, j), which is entry (512·i + p, j) of adj · z.  At k = 3 the body then writes max(acc + b, 0) to
  the output block, which is block i of the layer's result; row r of the result lies in the block written at point
  4·(r / 512) + 3, so the eight written blocks cover the array and after the region it holds
  relu(adj · z + b), entry by entry.
-/
import proofs.«114786_g54460185313466_cont_9to1c4b_855_2_alg».proof.Proof.Gen.KernelIdeal.Launch
import proofs.«114786_g54460185313466_cont_9to1c4b_855_2_alg».proof.Proof.Gen.KernelIdeal.Skeleton
import proofs.«114786_g54460185313466_cont_9to1c4b_855_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws
import proofs.«114786_g54460185313466_cont_9to1c4b_855_2_alg».proof.Proof.GcnSpec
import proofs.«114786_g54460185313466_cont_9to1c4b_855_2_alg».proof.Proof.Gcn.BlockSum
import proofs.«114786_g54460185313466_cont_9to1c4b_855_2_alg».proof.Proof.Gcn.LayerAlgebra
import proofs.«114786_g54460185313466_cont_9to1c4b_855_2_alg».proof.Proof.Gcn.LayerPayloads
import proofs.«114786_g54460185313466_cont_9to1c4b_855_2_alg».proof.Proof.Gcn.Layer3

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
open Cert.GcnSpec

/-! ## One run of the body, entry by entry -/

theorem l3_hz : (![0, 0] : Fin 2 → Nat) = fun _ => 0 := funext fun a => by fin_cases a <;> rfl

/-- The restarted accumulator at entry (p, j): the blocks' product there. -/
theorem acc3_A_apply (x0 : Vec Ideal S512x1024 .f32) (x1 : Vec Ideal S1024x256 .f32) (p : Fin 512) (j : Fin 256) :
    acc3_A (F := Ideal) x0 x1 (ix2 p j) = ∑ q : Fin 1024, x0 (ix2 p q) * x1 (ix2 q j) := by
  unfold acc3_A
  rw [View.canon_unit_zero l3_hz]
  simp only [View.ld_unit_zero (S := S512x1024) l3_hz, View.ld_unit_zero (S := S1024x256) l3_hz]
  exact k3_pay2_apply x0 x1 p j

/-- The accumulator after a later step at entry (p, j): what it held there plus the blocks' product. -/
theorem acc3_B_apply (x0 : Vec Ideal S512x1024 .f32) (x1 : Vec Ideal S1024x256 .f32) (xs : Vec Ideal S512x256 .f32)
    (p : Fin 512) (j : Fin 256) :
    acc3_B (F := Ideal) x0 x1 xs (ix2 p j) = xs (ix2 p j) + ∑ q : Fin 1024, x0 (ix2 p q) * x1 (ix2 q j) := by
  unfold acc3_B
  rw [View.canon_unit_zero l3_hz]
  simp only [View.ld_unit_zero (S := S512x1024) l3_hz, View.ld_unit_zero (S := S1024x256) l3_hz,
    View.ld_unit_zero (S := S512x256) l3_hz]
  exact k3_pay3_apply x0 x1 xs p j

/-- The output block after the last step at entry (p, j): the accumulator there, biased and rectified; the fourth
    operand, a zero matrix, is staged but not read. -/
theorem out3_4_apply (xs : Vec Ideal S512x256 .f32) (x2 : Vec Ideal S1x256 .f32) (x3 : Vec Ideal S256x256 .f32)
    (p : Fin 512) (j : Fin 256) :
    out3_4 (F := Ideal) xs x2 x3 (ix2 p j) = max (xs (ix2 p j) + x2 (ix2 (0 : Fin 1) j)) 0 := by
  unfold out3_4
  rw [View.canon_unit_zero l3_hz]
  simp only [View.ld_unit_zero (S := S512x256) l3_hz, View.ld_unit_zero (S := S1x256) l3_hz]
  exact k3_pay4_apply xs x2 p j

/-! ## The blocks the points read -/

/-- The printed index maps over the grid: at point t = 4·i + k the adjacency window is on block (i, k), the window of
    the previous result on block (k, 0), the bias row and the weight matrix on their one block, the output window on
    block (i, 0). -/
theorem l3_idx_facts : ∀ t : Fin cfg3.N,
    win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val / 4 ∧ win3_4.index t (1 : Fin 2) = 0 :=
  (by decide +kernel : ∀ t : Fin grid3.N, _)

section
variable (V : (c : Dev nD) → (b : Ref sig .tc) → Buf (Elt Ideal) ((c : Thread nD τ).loc b))

/-- The adjacency block at point 4·i + k, entry (p, q): entry (512·i + p, 1024·k + q) of adj. -/
theorem l3_adj_block (c : Dev nD) (t : Fin cfg3.N) (i : Fin 8) (k : Fin 4) (hi : t.val / 4 = i.val) (hk : t.val % 4 = k.val)
    (p : Fin 512) (q : Fin 1024) :
    iblk3 (F := Ideal) V c 0 t (ix2 p q) = adjAt (V c main_arg1) i k p q := by
  obtain ⟨e0, e1, e2, e3, e4, e5, e6, e7, e8, e9⟩ := l3_idx_facts t
  have hp : p.val < 512 := p.isLt
  have hq : q.val < 1024 := q.isLt
  have hi8 : i.val < 8 := i.isLt
  have hk4 : k.val < 4 := k.isLt
  have h : ((cfg3.win 0).blk t).view.emb (ix2 p q)
      = ix2 (⟨i.val * 512 + p.val, by omega⟩ : Fin 4096) (⟨k.val * 1024 + q.val, by omega⟩ : Fin 4096) := by
    funext a; apply Fin.ext
    match a with
    | ⟨0, _⟩ => show win3_0.index t (0 : Fin 2) * 512 + 1 * p.val = i.val * 512 + p.val; omega
    | ⟨1, _⟩ => show win3_0.index t (1 : Fin 2) * 1024 + 1 * q.val = k.val * 1024 + q.val; omega
  show V c main_arg1 (((cfg3.win 0).blk t).view.emb (ix2 p q)) = _
  rw [h]
  rfl

/-- The block of the previous result at point 4·i + k, entry (q, j): entry (1024·k + q, j) of that array. -/
theorem l3_prev_block (c : Dev nD) (t : Fin cfg3.N) (k : Fin 4) (hk : t.val % 4 = k.val) (q : Fin 1024) (j : Fin 256) :
    iblk3 (F := Ideal) V c 1 t (ix2 q j) = featAt (V c main_call0_v4) k q j := by
  obtain ⟨e0, e1, e2, e3, e4, e5, e6, e7, e8, e9⟩ := l3_idx_facts t
  have hq : q.val < 1024 := q.isLt
  have hj : j.val < 256 := j.isLt
  have hk4 : k.val < 4 := k.isLt
  have h : ((cfg3.win 1).blk t).view.emb (ix2 q j) = ix2 (⟨k.val * 1024 + q.val, by omega⟩ : Fin 4096) j := by
    funext a; apply Fin.ext
    match a with
    | ⟨0, _⟩ => show win3_1.index t (0 : Fin 2) * 1024 + 1 * q.val = k.val * 1024 + q.val; omega
    | ⟨1, _⟩ => show win3_1.index t (1 : Fin 2) * 256 + 1 * j.val = j.val; omega
  show V c main_call0_v4 (((cfg3.win 1).blk t).view.emb (ix2 q j)) = _
  rw [h]
  rfl

/-- The bias window's block is the whole bias row at every point. -/
theorem l3_bias_block (c : Dev nD) (t : Fin cfg3.N) (l : Fin 256) :
    iblk3 (F := Ideal) V c 2 t (ix2 (0 : Fin 1) l) = V c main_call0_v6 (ix2 (0 : Fin 1) l) := by
  obtain ⟨e0, e1, e2, e3, e4, e5, e6, e7, e8, e9⟩ := l3_idx_facts t
  have hl : l.val < 256 := l.isLt
  have h : ((cfg3.win 2).blk t).view.emb (ix2 (0 : Fin 1) l) = ix2 (0 : Fin 1) l := by
    funext a; apply Fin.ext
    match a with
    | ⟨0, _⟩ => show win3_2.index t (0 : Fin 2) * 1 + 1 * ((0 : Fin 1) : ℕ) = ((0 : Fin 1) : ℕ); omega
    | ⟨1, _⟩ => show win3_2.index t (1 : Fin 2) * 256 + 1 * l.val = l.val; omega
  show V c main_call0_v6 (((cfg3.win 2).blk t).view.emb (ix2 (0 : Fin 1) l)) = _
  rw [h]

/-! ## The accumulator after the fourth step of a row block -/

/-- The accumulator's contents do not depend on how the position is written. -/
theorem l3_accAt_congr (c : Dev nD) {n n' : ℕ} (e : n = n') (h : n < cfg3.N) (h' : n' < cfg3.N) :
    accAt3 (F := Ideal) V c n h = accAt3 (F := Ideal) V c n' h' := by
  subst e; rfl

/-- After the fourth point of row block i the accumulator's entry (p, j) is entry (512·i + p, j) of adj · z: the
    restart at the first point and the three additions, read entry by entry, are the four blocks' partial sums in order. -/
theorem l3_acc_rowblock (c : Dev nD) (i : Fin 8) (h : 4 * i.val + 1 + 1 + 1 < cfg3.N) (p : Fin 512) (j : Fin 256) :
    accAt3 (F := Ideal) V c (4 * i.val + 1 + 1 + 1) h (ix2 p j)
      = adjProd (V c main_arg1) (V c main_call0_v4) (ix2 (⟨i.val * 512 + p.val, by omega⟩ : Fin 4096) j) := by
  have h2 : 4 * i.val + 1 + 1 < cfg3.N := Nat.lt_of_succ_lt h
  have h1 : 4 * i.val + 1 < cfg3.N := Nat.lt_of_succ_lt h2
  have h0 : 4 * i.val < cfg3.N := Nat.lt_of_succ_lt h1
  exact four_steps_entry (V c main_arg1) (V c main_call0_v4) i
    (iblk3 (F := Ideal) V c 0 ⟨4 * i.val, h0⟩) (iblk3 (F := Ideal) V c 0 ⟨4 * i.val + 1, h1⟩)
    (iblk3 (F := Ideal) V c 0 ⟨4 * i.val + 1 + 1, h2⟩) (iblk3 (F := Ideal) V c 0 ⟨4 * i.val + 1 + 1 + 1, h⟩)
    (iblk3 (F := Ideal) V c 1 ⟨4 * i.val, h0⟩) (iblk3 (F := Ideal) V c 1 ⟨4 * i.val + 1, h1⟩)
    (iblk3 (F := Ideal) V c 1 ⟨4 * i.val + 1 + 1, h2⟩) (iblk3 (F := Ideal) V c 1 ⟨4 * i.val + 1 + 1 + 1, h⟩)
    (fun p q => l3_adj_block V c ⟨4 * i.val, h0⟩ i 0 (by show 4 * i.val / 4 = i.val; omega) (by show 4 * i.val % 4 = 0; omega) p q)
    (fun p q => l3_adj_block V c ⟨4 * i.val + 1, h1⟩ i 1 (by show (4 * i.val + 1) / 4 = i.val; omega) (by show (4 * i.val + 1) % 4 = 1; omega) p q)
    (fun p q => l3_adj_block V c ⟨4 * i.val + 1 + 1, h2⟩ i 2 (by show (4 * i.val + 1 + 1) / 4 = i.val; omega) (by show (4 * i.val + 1 + 1) % 4 = 2; omega) p q)
    (fun p q => l3_adj_block V c ⟨4 * i.val + 1 + 1 + 1, h⟩ i 3 (by show (4 * i.val + 1 + 1 + 1) / 4 = i.val; omega) (by show (4 * i.val + 1 + 1 + 1) % 4 = 3; omega) p q)
    (fun q j => l3_prev_block V c ⟨4 * i.val, h0⟩ 0 (by show 4 * i.val % 4 = 0; omega) q j)
    (fun q j => l3_prev_block V c ⟨4 * i.val + 1, h1⟩ 1 (by show (4 * i.val + 1) % 4 = 1; omega) q j)
    (fun q j => l3_prev_block V c ⟨4 * i.val + 1 + 1, h2⟩ 2 (by show (4 * i.val + 1 + 1) % 4 = 2; omega) q j)
    (fun q j => l3_prev_block V c ⟨4 * i.val + 1 + 1 + 1, h⟩ 3 (by show (4 * i.val + 1 + 1 + 1) % 4 = 3; omega) q j)
    p j
    (accAt3 (F := Ideal) V c (4 * i.val) h0 (ix2 p j)) (accAt3 (F := Ideal) V c (4 * i.val + 1) h1 (ix2 p j))
    (accAt3 (F := Ideal) V c (4 * i.val + 1 + 1) h2 (ix2 p j)) (accAt3 (F := Ideal) V c (4 * i.val + 1 + 1 + 1) h (ix2 p j))
    ((congrFun (accAt3_reset (F := Ideal) V c (4 * i.val) h0 (by omega)) (ix2 p j)).trans (acc3_A_apply _ _ p j))
    ((congrFun (accAt3_step (F := Ideal) V c (4 * i.val) h1 (by omega)) (ix2 p j)).trans (acc3_B_apply _ _ _ p j))
    ((congrFun (accAt3_step (F := Ideal) V c (4 * i.val + 1) h2 (by omega)) (ix2 p j)).trans (acc3_B_apply _ _ _ p j))
    ((congrFun (accAt3_step (F := Ideal) V c (4 * i.val + 1 + 1) h (by omega)) (ix2 p j)).trans (acc3_B_apply _ _ _ p j))

/-! ## From blocks to the array -/

/-- What the output window's buffer holds after a point with k = 3, at entry y of the block: the layer's result at
    the entry of the array that y is in the block of that point. -/
theorem l3_block_entry (c : Dev nD) (t : Fin cfg3.N) (h3 : t.val % 4 = 3) (y : S512x256.Idx) :
    outAt3 (F := Ideal) V c t y
      = biasRelu (adjProd (V c main_arg1) (V c main_call0_v4)) (rowOf (V c main_call0_v6)) (((cfg3.win 4).blk t).view.emb y) := by
  obtain ⟨p, j, rfl⟩ : ∃ (p : Fin 512) (j : Fin 256), y = ix2 p j := ⟨y 0, y 1, eq_ix2 y⟩
  have hN : t.val < 32 := lt_of_lt_of_eq t.isLt (show cfg3.N = 32 from N_3)
  have hp : p.val < 512 := p.isLt
  have hj : j.val < 256 := j.isLt
  obtain ⟨i, hi⟩ : ∃ i : Fin 8, t.val = 4 * i.val + 1 + 1 + 1 := ⟨⟨t.val / 4, by omega⟩, by show t.val = 4 * (t.val / 4) + 1 + 1 + 1; omega⟩
  have hi8 : i.val < 8 := i.isLt
  obtain ⟨e0, e1, e2, e3, e4, e5, e6, e7, e8, e9⟩ := l3_idx_facts t
  have hemb : ((cfg3.win 4).blk t).view.emb (ix2 p j) = ix2 (⟨i.val * 512 + p.val, by omega⟩ : Fin 4096) j := by
    funext a; apply Fin.ext
    match a with
    | ⟨0, _⟩ => show win3_4.index t (0 : Fin 2) * 512 + 1 * p.val = i.val * 512 + p.val; omega
    | ⟨1, _⟩ => show win3_4.index t (1 : Fin 2) * 256 + 1 * j.val = j.val; omega
  have hacc : ∀ l : Fin 256, accAt3 (F := Ideal) V c t.val t.isLt (ix2 p l)
      = adjProd (V c main_arg1) (V c main_call0_v4) (ix2 (⟨i.val * 512 + p.val, by omega⟩ : Fin 4096) l) := fun l =>
    (congrFun (l3_accAt_congr V c hi t.isLt (lt_of_eq_of_lt hi.symm t.isLt)) (ix2 p l)).trans
      (l3_acc_rowblock V c i (lt_of_eq_of_lt hi.symm t.isLt) p l)
  rw [hemb]
  unfold outAt3
  rw [out3_4_apply, l3_bias_block]
  exact last_layer_entry (V c main_arg1) (V c main_call0_v4) (V c main_call0_v6) (⟨i.val * 512 + p.val, by omega⟩ : Fin 4096) j _ (hacc j)

/-- What a point with k = 3 writes back is its block of the layer's result on the arrays as the region finds them. -/
theorem l3_flushed_eq (c : Dev nD) (t : Fin cfg3.N) (hf : (cfg3.win 4).flush t = true) :
    (dat3 (F := Ideal) V c).flushed 4 t
      = ((cfg3.win 4).blk t).view.read (Elt Ideal) (biasRelu (adjProd (V c main_arg1) (V c main_call0_v4)) (rowOf (V c main_call0_v6))) := by
  have h3 : t.val % 4 = 3 := (flush3_4 t).mp hf
  show (cfg3.win 4).cut (grid3.coords t) ((dat3 (F := Ideal) V c).after 4 t) = _
  rw [after3_4]
  funext y
  show outAt3 (F := Ideal) V c t y
    = biasRelu (adjProd (V c main_arg1) (V c main_call0_v4)) (rowOf (V c main_call0_v6)) (((cfg3.win 4).blk t).view.emb y)
  exact l3_block_entry V c t h3 y

/-- An index of the result array is in point t's block iff each coordinate is in the block's range on its axis. -/
theorem l3_mem_blk (t : Fin cfg3.N) (i : S4096x256.Idx) :
    i ∈ ((cfg3.win 4).blk t).view.set ↔ ∀ a : Fin 2, win3_4.index t a * S512x256.size a ≤ (i a).val ∧ (i a).val < win3_4.index t a * S512x256.size a + S512x256.size a := by
  show i ∈ ((View.whole main_v0).slice (win3_4.rect t)).set ↔ _
  rw [View.set_slice_whole, Rect.mem_set_unit]
  exact Iff.rfl

/-- Every index of the result array is in the block some point with k = 3 writes back: row r in that of point
    4·(r / 512) + 3. -/
theorem l3_cover (i : S4096x256.Idx) :
    ∃ t : Fin cfg3.N, (cfg3.win 4).flush t = true ∧ i ∈ ((cfg3.win 4).blk t).view.set := by
  have hi0 : (i 0).val < 4096 := (i 0).isLt
  have hi1 : (i 1).val < 256 := (i 1).isLt
  obtain ⟨t, ht⟩ : ∃ t : Fin cfg3.N, t.val = 4 * ((i 0).val / 512) + 3 :=
    ⟨⟨4 * ((i 0).val / 512) + 3, by show _ < grid3.N; rw [N_3]; omega⟩, rfl⟩
  obtain ⟨e0, e1, e2, e3, e4, e5, e6, e7, e8, e9⟩ := l3_idx_facts t
  refine ⟨t, (flush3_4 t).mpr (by omega), ?_⟩
  rw [l3_mem_blk]
  intro a
  match a with
  | ⟨0, _⟩ => show win3_4.index t (0 : Fin 2) * 512 ≤ (i 0).val ∧ (i 0).val < win3_4.index t (0 : Fin 2) * 512 + 512; omega
  | ⟨1, _⟩ => show win3_4.index t (1 : Fin 2) * 256 ≤ (i 1).val ∧ (i 1).val < win3_4.index t (1 : Fin 2) * 256 + 256; omega

/-- After the region the result array is the layer's result on the arrays as the region found them. -/
theorem final3 (c : Dev nD) :
    ((dat3 (F := Ideal) V c).arrAt 4 cfg3.N : S4096x256.Idx → EReal)
      = biasRelu (adjProd (V c main_arg1) (V c main_call0_v4)) (rowOf (V c main_call0_v6)) :=
  (dat3 (F := Ideal) V c).arrAt_eq_of_cover 4 (biasRelu (adjProd (V c main_arg1) (V c main_call0_v4)) (rowOf (V c main_call0_v6)))
    (fun t hf => l3_flushed_eq V c t hf) l3_cover

end

end Cert.KernelIdeal.Gcn

end
-- ==== Proof.Gcn.Network.lean ====
/-
  The idealized program's result is the three-layer network of its arguments. Reading the buffers' contents segment by
  segment: the first region leaves x · W1; each layer region finds adj and the weight matrix as launched (no segment writes
  an argument), the previous region's result as that region left it (the host stretch between them writes only the bias
  row), and the bias as a row [1, 256] whose entries are the bias vector's (a reshape); it leaves
  relu(adj · z + b) · W_next, the last one relu(adj · z + b). Composed, that is `Cert.GcnSpec.network`.
-/
import proofs.«114786_g54460185313466_cont_9to1c4b_855_2_alg».proof.Proof.Gen.KernelIdeal.Launch
import proofs.«114786_g54460185313466_cont_9to1c4b_855_2_alg».proof.Proof.Gen.KernelIdeal.Skeleton
import proofs.«114786_g54460185313466_cont_9to1c4b_855_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«114786_g54460185313466_cont_9to1c4b_855_2_alg».proof.Proof.Gen.KernelIdeal.Regions
import proofs.«114786_g54460185313466_cont_9to1c4b_855_2_alg».proof.Proof.Gcn.Program
import proofs.«114786_g54460185313466_cont_9to1c4b_855_2_alg».proof.Proof.Gcn.XWValue
import proofs.«114786_g54460185313466_cont_9to1c4b_855_2_alg».proof.Proof.Gcn.Layer1Value
import proofs.«114786_g54460185313466_cont_9to1c4b_855_2_alg».proof.Proof.Gcn.Layer2Value
import proofs.«114786_g54460185313466_cont_9to1c4b_855_2_alg».proof.Proof.Gcn.Layer3Value
import proofs.«114786_g54460185313466_cont_9to1c4b_855_2_alg».proof.Proof.GcnSpec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.GcnSpec Idealize.ShloMosaic.ValueIdx

variable (m : (ℓ : Loc nD τ sig) → Buf (Elt Ideal) ℓ)

/-- A bias vector reshaped to a row [1, 256] and read back as a vector is the vector. -/
theorem rowOf_reshape (b : Vec Ideal S256 .f32) :
    rowOf (shapeCast S1x256 b shapeCasts_S256_S1x256 : S1x256.Idx → EReal) = (b : S256.Idx → EReal) := by
  funext j
  obtain ⟨q, rfl⟩ : ∃ q : Fin 256, j = ix1 q := ⟨j 0, eq_ix1 j⟩
  exact shapeCast_a_1a_apply b shapeCasts_S256_S1x256 (0 : Fin 1) q

/-! ## What each region is entered from -/

theorem in1_adj (c : Dev nD) : X2 m c main_arg1 = m ((c : Thread nD τ).loc main_arg1) :=
  (W2_keep m c main_arg1 (by decide)).trans ((W1_keep m c main_arg1 (by decide)).trans rfl)
theorem in1_w (c : Dev nD) : X2 m c main_arg4 = m ((c : Thread nD τ).loc main_arg4) :=
  (W2_keep m c main_arg4 (by decide)).trans ((W1_keep m c main_arg4 (by decide)).trans rfl)
theorem in1_z (c : Dev nD) : (X2 m c main_call0_v0 : S4096x256.Idx → EReal)
    = featProd (m ((c : Thread nD τ).loc main_arg0)) (m ((c : Thread nD τ).loc main_arg2)) :=
  (W2_keep m c main_call0_v0 (by decide)).trans ((W1_arr m c 2).trans (final0 (X0 m) c))
theorem in1_b (c : Dev nD) : rowOf (X2 m c main_call0_v1 : S1x256.Idx → EReal) = m ((c : Thread nD τ).loc main_arg3) := by
  have e : (X2 m c main_call0_v1 : S1x256.Idx → EReal)
      = shapeCast S1x256 (W1 m c (Proc.devRef .tc main_arg3) : Vec Ideal S256 .f32) shapeCasts_S256_S1x256 := by
    show StableHlo.after hostOps1 (W1 m c) (Proc.devRef .tc main_call0_v1) = _
    after_results; rfl
  rw [e, rowOf_reshape]
  exact (W1_keep m c main_arg3 (by decide)).trans rfl

theorem in2_adj (c : Dev nD) : X4 m c main_arg1 = m ((c : Thread nD τ).loc main_arg1) :=
  (W4_keep m c main_arg1 (by decide)).trans ((W3_keep m c main_arg1 (by decide)).trans (in1_adj m c))
theorem in2_w (c : Dev nD) : X4 m c main_arg6 = m ((c : Thread nD τ).loc main_arg6) :=
  (W4_keep m c main_arg6 (by decide)).trans ((W3_keep m c main_arg6 (by decide)).trans
    ((W2_keep m c main_arg6 (by decide)).trans ((W1_keep m c main_arg6 (by decide)).trans rfl)))
theorem in2_z (c : Dev nD) : (X4 m c main_call0_v2 : S4096x256.Idx → EReal)
    = featProd (aggregate (m ((c : Thread nD τ).loc main_arg1)) (featProd (m ((c : Thread nD τ).loc main_arg0)) (m ((c : Thread nD τ).loc main_arg2)))
        (m ((c : Thread nD τ).loc main_arg3))) (m ((c : Thread nD τ).loc main_arg4)) := by
  refine (W4_keep m c main_call0_v2 (by decide)).trans ((W3_arr m c 4).trans ((final1 (X2 m) c).trans ?_))
  rw [in1_adj, in1_w, in1_z, in1_b]; rfl
theorem in2_b (c : Dev nD) : rowOf (X4 m c main_call0_v3 : S1x256.Idx → EReal) = m ((c : Thread nD τ).loc main_arg5) := by
  have e : (X4 m c main_call0_v3 : S1x256.Idx → EReal)
      = shapeCast S1x256 (W3 m c (Proc.devRef .tc main_arg5) : Vec Ideal S256 .f32) shapeCasts_S256_S1x256 := by
    show StableHlo.after hostOps2 (W3 m c) (Proc.devRef .tc main_call0_v3) = _
    after_results; rfl
  rw [e, rowOf_reshape]
  exact (W3_keep m c main_arg5 (by decide)).trans ((W2_keep m c main_arg5 (by decide)).trans ((W1_keep m c main_arg5 (by decide)).trans rfl))

theorem in3_adj (c : Dev nD) : X6 m c main_arg1 = m ((c : Thread nD τ).loc main_arg1) :=
  (W6_keep m c main_arg1 (by decide)).trans ((W5_keep m c main_arg1 (by decide)).trans (in2_adj m c))
theorem in3_z (c : Dev nD) : (X6 m c main_call0_v4 : S4096x256.Idx → EReal)
    = featProd (aggregate (m ((c : Thread nD τ).loc main_arg1))
        (featProd (aggregate (m ((c : Thread nD τ).loc main_arg1)) (featProd (m ((c : Thread nD τ).loc main_arg0)) (m ((c : Thread nD τ).loc main_arg2)))
          (m ((c : Thread nD τ).loc main_arg3))) (m ((c : Thread nD τ).loc main_arg4)))
        (m ((c : Thread nD τ).loc main_arg5))) (m ((c : Thread nD τ).loc main_arg6)) := by
  refine (W6_keep m c main_call0_v4 (by decide)).trans ((W5_arr m c 4).trans ((final2 (X4 m) c).trans ?_))
  rw [in2_adj, in2_w, in2_z, in2_b]; rfl
theorem in3_b (c : Dev nD) : rowOf (X6 m c main_call0_v6 : S1x256.Idx → EReal) = m ((c : Thread nD τ).loc main_arg7) := by
  have e : (X6 m c main_call0_v6 : S1x256.Idx → EReal)
      = shapeCast S1x256 (W5 m c (Proc.devRef .tc main_arg7) : Vec Ideal S256 .f32) shapeCasts_S256_S1x256 := by
    show StableHlo.after hostOps3 (W5 m c) (Proc.devRef .tc main_call0_v6) = _
    after_results; rfl
  rw [e, rowOf_reshape]
  exact (W5_keep m c main_arg7 (by decide)).trans ((W4_keep m c main_arg7 (by decide)).trans ((W3_keep m c main_arg7 (by decide)).trans
    ((W2_keep m c main_arg7 (by decide)).trans ((W1_keep m c main_arg7 (by decide)).trans rfl))))

/-- The result array's final contents are the network of the arguments. -/
theorem result_network (c : Dev nD) : ((dat3 (F := Ideal) (X6 m) c).arrAt 4 cfg3.N : S4096x256.Idx → EReal)
    = network (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  rw [final3, in3_adj, in3_z, in3_b]; rfl

/-- Every weakly fair execution of the idealized program ends with the result at the network of the arguments and the
    arguments unchanged. -/
theorem run_network (ρ : Dev nD → PrngReg) :
    θ_run defs (onTc (τ := τ) (main (F := Ideal))) ⟨m, fun _ => 0, ρ⟩ (fun r => ∀ c : Dev nD,
      r.2.mem ((c.tc : Thread nD τ).loc main_v0) = network (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_network m c), (h c).2⟩) (run_result (F := Ideal) m ρ)

end Cert.KernelIdeal.Gcn

end
-- ==== Proof.Reference.lean ====
/-
  The reference program computes the three-layer network of Cert.GcnSpec. Each layer is five array operations: the
  feature transform h · W, the aggregation adj · (h · W), the bias row repeated over all 4096 rows, the sum of the last
  two, and the maximum with an array of zeros. Read at an index (r, j): the two products are the sums
  Σ_k h(r, k) · W(k, j) over k < 256 and Σ_k adj(r, k) · (h · W)(k, j) over k < 4096; the repeated bias is b(j); the
  zero array is 0; so the layer's entry is max(Σ_k adj(r, k) · (h · W)(k, j) + b(j), 0), which is
  `aggregate adj (featProd h W) b`. The program is that layer three times, each applied to the result of the one before,
  and that composition is `network`. Its run ends with the result array at that function of the argument arrays and the
  argument arrays unchanged.
-/
import proofs.«114786_g54460185313466_cont_9to1c4b_855_2_alg».proof.Defs
import proofs.«114786_g54460185313466_cont_9to1c4b_855_2_alg».proof.Proof.Gen.ReferenceIdeal
import proofs.«114786_g54460185313466_cont_9to1c4b_855_2_alg».proof.Proof.Gen.ReferenceIdeal.Run
import proofs.«114786_g54460185313466_cont_9to1c4b_855_2_alg».proof.Proof.Gen.ReferenceIdeal.Read
import proofs.«114786_g54460185313466_cont_9to1c4b_855_2_alg».proof.Proof.GcnSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx
open Cert.GcnSpec

/-! ## The operand indices of the two products, by coordinates

At the result index (r, j) and the summation index k the left operand is read at (r, k) and the right one at (k, j),
for the feature transform (k < 256) and for the aggregation (k < 4096) alike; the bias row repeated over the rows is
read at j. -/

/-- The feature transform reads its left operand at (r, k). -/
theorem lidx_feat (i : S4096x256.Idx) (k : Fin 256) : Read.lidx_main_v0 i k = ix2 (i 0 : Fin 4096) k :=
  funext fun a => Fin.ext (by match a with | ⟨0, _⟩ => rfl | ⟨1, _⟩ => rfl)

/-- The feature transform reads its right operand at (k, j). -/
theorem ridx_feat (i : S4096x256.Idx) (k : Fin 256) : Read.ridx_main_v0 i k = ix2 k (i 1 : Fin 256) :=
  funext fun a => Fin.ext (by match a with | ⟨0, _⟩ => rfl | ⟨1, _⟩ => rfl)

/-- The aggregation reads the adjacency matrix at (r, k). -/
theorem lidx_adj (i : S4096x256.Idx) (k : Fin 4096) : Read.lidx_main_v1 i k = ix2 (i 0 : Fin 4096) k :=
  funext fun a => Fin.ext (by match a with | ⟨0, _⟩ => rfl | ⟨1, _⟩ => rfl)

/-- The aggregation reads the transformed features at (k, j). -/
theorem ridx_adj (i : S4096x256.Idx) (k : Fin 4096) : Read.ridx_main_v1 i k = ix2 k (i 1 : Fin 256) :=
  funext fun a => Fin.ext (by match a with | ⟨0, _⟩ => rfl | ⟨1, _⟩ => rfl)

/-- The bias, first made a 1 × 256 row and then repeated over the 4096 rows, is read at the column j. -/
theorem idx_bias (i : S4096x256.Idx) : Read.idx_main_v2 (Read.idx_main_v3 i) = ix1 (i 1 : Fin 256) :=
  funext fun a => Fin.ext (by match a with | ⟨0, _⟩ => rfl)

/-! ## One layer, stage by stage -/

/-- The feature transform is `featProd`: entry (r, j) is Σ_k h(r, k) · W(k, j). -/
theorem featDot_eq (h : FVec Ideal S4096x256 .f32) (w : FVec Ideal S256x256 .f32) :
    Read.val_main_v0 (F := Ideal) h w = featProd h w := by
  funext i
  rw [Read.val_main_v0_apply]
  exact Finset.sum_congr rfl fun k _ => by rw [lidx_feat, ridx_feat]; rfl

/-- The aggregation of the transformed features is `adjProd`: entry (r, j) is Σ_k adj(r, k) · (h · W)(k, j). -/
theorem adjDot_at (h : FVec Ideal S4096x256 .f32) (adj : FVec Ideal S4096x4096 .f32) (w : FVec Ideal S256x256 .f32)
    (i : S4096x256.Idx) :
    Read.val_main_v1 (F := Ideal) h adj w i = adjProd adj (featProd h w) i := by
  rw [Read.val_main_v1_apply, featDot_eq]
  exact Finset.sum_congr rfl fun k _ => by rw [lidx_adj, ridx_adj]; rfl

/-- The repeated bias at (r, j) is b(j). -/
theorem bias_at (b : FVec Ideal S256 .f32) (i : S4096x256.Idx) :
    Read.val_main_v3 (F := Ideal) b i = b (ix1 (i 1 : Fin 256)) := by
  rw [Read.val_main_v3_apply, Read.val_main_v2_apply, idx_bias]
  rfl

/-- The array the maximum is taken against is zero everywhere: the word of all zero bits is the real number 0. -/
theorem zero_at (i : S4096x256.Idx) : Read.val_main_call0_v0 (F := Ideal) i = (0 : EReal) := by
  rw [Read.val_main_call0_v0_apply, Read.val_main_call0_cst_apply, Ideal.ofBits_def, Ideal.ofBits_zero_f32]

/-- A layer at an index: max(Σ_k adj(r, k) · (h · W)(k, j) + b(j), 0). -/
theorem layer_at (h : FVec Ideal S4096x256 .f32) (adj : FVec Ideal S4096x4096 .f32) (w : FVec Ideal S256x256 .f32)
    (b : FVec Ideal S256 .f32) (i : S4096x256.Idx) :
    Read.val_main_v5 (F := Ideal) h adj w b i = aggregate adj (featProd h w) b i := by
  show _ = max (adjProd adj (featProd h w) i + b (ix1 (i 1 : Fin 256))) 0
  rw [Read.val_main_v5_apply, Read.val_main_v4_apply, adjDot_at, bias_at, zero_at, Ideal.maximumf_def, Ideal.addf_def]

/-- A layer's five operations — the two products, the repeated bias, the sum and the maximum with zeros — are
    `aggregate adj (featProd h W) b`, whatever the incoming features h. -/
theorem layer_eq (adj : FVec Ideal S4096x4096 .f32) (h : FVec Ideal S4096x256 .f32) (w : FVec Ideal S256x256 .f32)
    (b : FVec Ideal S256 .f32) :
    maximumf (addf (Host.dotGeneral (F := Ideal) dot_S4096x4096_S4096x256_S4096x256_1_0_0_1_n_n none adj (Host.dotGeneral (F := Ideal) dot_S4096x256_S256x256_S4096x256_1_0_0_1_n_n none h w)) (broadcastInDim S4096x256 ![0, 1] bcast_S1x256_S4096x256_0_1 (broadcastInDim S1x256 ![1] bcast_S256_S1x256_1 b))) (broadcastInDim S4096x256 ![] bcast_S_S4096x256 (constant (F := Ideal) S_ .f32 0x00000000#32))
      = aggregate adj (featProd h w) b :=
  funext fun i => layer_at h adj w b i

/-! ## The whole program -/

/-- The reference's result, as its run states it — the three layers' operations composed over the eight argument
    arrays — is the network function of them: each layer is `aggregate adj (featProd · W) b` of the one before. -/
theorem result_eq (a0 : FVec Ideal S4096x256 .f32) (a1 : FVec Ideal S4096x4096 .f32) (a2 : FVec Ideal S256x256 .f32)
    (a3 : FVec Ideal S256 .f32) (a4 : FVec Ideal S256x256 .f32) (a5 : FVec Ideal S256 .f32) (a6 : FVec Ideal S256x256 .f32)
    (a7 : FVec Ideal S256 .f32) :
    maximumf (addf (Host.dotGeneral (F := Ideal) dot_S4096x4096_S4096x256_S4096x256_1_0_0_1_n_n none a1 (Host.dotGeneral (F := Ideal) dot_S4096x256_S256x256_S4096x256_1_0_0_1_n_n none (maximumf (addf (Host.dotGeneral (F := Ideal) dot_S4096x4096_S4096x256_S4096x256_1_0_0_1_n_n none a1 (Host.dotGeneral (F := Ideal) dot_S4096x256_S256x256_S4096x256_1_0_0_1_n_n none (maximumf (addf (Host.dotGeneral (F := Ideal) dot_S4096x4096_S4096x256_S4096x256_1_0_0_1_n_n none a1 (Host.dotGeneral (F := Ideal) dot_S4096x256_S256x256_S4096x256_1_0_0_1_n_n none a0 a2)) (broadcastInDim S4096x256 ![0, 1] bcast_S1x256_S4096x256_0_1 (broadcastInDim S1x256 ![1] bcast_S256_S1x256_1 a3))) (broadcastInDim S4096x256 ![] bcast_S_S4096x256 (constant (F := Ideal) S_ .f32 0x00000000#32))) a4)) (broadcastInDim S4096x256 ![0, 1] bcast_S1x256_S4096x256_0_1 (broadcastInDim S1x256 ![1] bcast_S256_S1x256_1 a5))) (broadcastInDim S4096x256 ![] bcast_S_S4096x256 (constant (F := Ideal) S_ .f32 0x00000000#32))) a6)) (broadcastInDim S4096x256 ![0, 1] bcast_S1x256_S4096x256_0_1 (broadcastInDim S1x256 ![1] bcast_S256_S1x256_1 a7))) (broadcastInDim S4096x256 ![] bcast_S_S4096x256 (constant (F := Ideal) S_ .f32 0x00000000#32))
      = Cert.GcnSpec.network a0 a1 a2 a3 a4 a5 a6 a7 := by
  rw [layer_eq, layer_eq, layer_eq]
  rfl

/-- Every weakly fair execution of the reference terminates with its result array at the network function of the
    argument arrays as the run found them, and with the argument arrays unchanged. -/
theorem run_network (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v17) = Cert.GcnSpec.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run Cert.ReferenceIdeal.defs _ _).mono
    (fun _ h c => ⟨(h c).1.trans (result_eq _ _ _ _ _ _ _ _), (h c).2⟩)
    (Cert.ReferenceIdeal.Value.run (F := Ideal) m ρ)

end Cert.ReferenceIdeal.RefValue

end
-- ==== Proof.lean ====
/-
  The claim: a three-layer dense graph convolution, h ↦ relu(adj · (h · W) + b) three times, computed by four tiled
  kernels — the first feature transform x · W1, then per layer the aggregation adj · z accumulated over four column
  blocks of adj, the bias, the rectification and (for the first two layers) the next feature transform — equals the
  plain reference index by index over the extended reals. Both results are the one function `Cert.GcnSpec.network` of
  the argument arrays: the kernel's because a sum over 4096 terms is the sum of its four blocks of 1024, a regrouping
  that holds in any commutative monoid and so needs no finiteness; the reference's by reading its stages at an index.
  The three frames: each kernel program terminates from every memory, faults nowhere and leaves its arguments unchanged
  (the run over the program's seven segments); the reference's frame is its run with the result dropped. The idealized
  kernel is the kernel's own text read over the extended reals: nothing was rewritten, so that conjunct is trivial.
-/
import proofs.«114786_g54460185313466_cont_9to1c4b_855_2_alg».proof.Defs
import proofs.«114786_g54460185313466_cont_9to1c4b_855_2_alg».proof.Proof.Gen.Kernel
import proofs.«114786_g54460185313466_cont_9to1c4b_855_2_alg».proof.Proof.Gen.KernelIdeal
import proofs.«114786_g54460185313466_cont_9to1c4b_855_2_alg».proof.Proof.Gen.ReferenceIdeal
import proofs.«114786_g54460185313466_cont_9to1c4b_855_2_alg».proof.Proof.Gen.Pre_finite_inputs
import proofs.«114786_g54460185313466_cont_9to1c4b_855_2_alg».proof.Proof.GcnBits.Program
import proofs.«114786_g54460185313466_cont_9to1c4b_855_2_alg».proof.Proof.Gcn.Program
import proofs.«114786_g54460185313466_cont_9to1c4b_855_2_alg».proof.Proof.Gcn.Network
import proofs.«114786_g54460185313466_cont_9to1c4b_855_2_alg».proof.Proof.Reference

noncomputable section

namespace Cert.Proof

open Idealize.ShloMosaic Idealize.SL.Sem

theorem frame_k : Cert.frame_Kernel := fun m ρ _ =>
  (θ_run Cert.Kernel.defs _ _).mono (fun _ h c => (h c).2) (Cert.Kernel.Gcn.run_result (F := Bits) m ρ)

theorem frame_ki : Cert.frame_KernelIdeal := fun m ρ _ =>
  (θ_run Cert.KernelIdeal.defs _ _).mono (fun _ h c => (h c).2) (Cert.KernelIdeal.Gcn.run_result (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => Cert.GcnSpec.network (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Gcn.run_network m ρ, ?_⟩
  refine (θ_run Cert.ReferenceIdeal.defs _ _).mono (fun _ h c => ⟨(h c).1.trans ?_, (h c).2⟩)
    (Cert.ReferenceIdeal.RefValue.run_network m' ρ')
  obtain ⟨h0, h1, h2, h3, h4, h5, h6, h7⟩ := hagree c
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
